-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32 : Shape := ⟨3, ![64, 32, 32]⟩
abbrev S128x192x32 : Shape := ⟨3, ![128, 192, 32]⟩
abbrev S64x768 : Shape := ⟨2, ![64, 768]⟩
abbrev S128x768 : Shape := ⟨2, ![128, 768]⟩
abbrev S64x32 : Shape := ⟨2, ![64, 32]⟩
abbrev S128x192 : Shape := ⟨2, ![128, 192]⟩
abbrev S_ : Shape := ⟨0, ![]⟩

class Facts : Prop where
  bcast_S_S64x32x32 : S_.BroadcastsInDim S64x32x32 (![] : Fin 0 → Fin S64x32x32.rank)
  reducesTo_S64x32x32_S_d0_1_2 : S64x32x32.ReducesTo [0, 1, 2] S_
  h_S_ : 0 < S_.numel
  bcast_S_S128x192x32 : S_.BroadcastsInDim S128x192x32 (![] : Fin 0 → Fin S128x192x32.rank)
  reducesTo_S128x192x32_S_d0_1_2 : S128x192x32.ReducesTo [0, 1, 2] S_
  bcast_S_S64x768 : S_.BroadcastsInDim S64x768 (![] : Fin 0 → Fin S64x768.rank)
  reducesTo_S64x768_S_d0_1 : S64x768.ReducesTo [0, 1] S_
  bcast_S_S128x768 : S_.BroadcastsInDim S128x768 (![] : Fin 0 → Fin S128x768.rank)
  reducesTo_S128x768_S_d0_1 : S128x768.ReducesTo [0, 1] S_

variable [Facts]

def fn_part1 {F : FTy → Type} [FloatOps F] (main_v13 : IVec S_ 1) (main_v16 : IVec S128x768 1) : IVec S_ 1 :=
  let main_c_5 : IVec S_ 1 := constantI S_ 1 1#1
  let main_v17 : IVec S_ 1 := (fun x v => Host.reduce IntOp.andi x v reducesTo_S128x768_S_d0_1 h_S_) main_v16 main_c_5
  let main_v18 : IVec S_ 1 := andi main_v13 main_v17
  main_v18

def fn {F : FTy → Type} [FloatOps F] (main_arg0 : FVec F S64x32x32 .f32) (main_arg1 : FVec F S128x192x32 .f32) (main_arg2 : FVec F S64x768 .f32) (main_arg3 : FVec F S128x768 .f32) (main_arg4 : IVec S64x32 32) (main_arg5 : IVec S128x192 32) (main_arg6 : IVec S64x32 32) : IVec S_ 1 :=
  let main_v0 : FVec F S64x32x32 .f32 := Host.absf main_arg0
  let main_cst : FVec F S_ .f32 := constant S_ .f32 0x7F800000#32
  let main_v1 : FVec F S64x32x32 .f32 := broadcastInDim S64x32x32 ![] bcast_S_S64x32x32 main_cst
  let main_v2 : IVec S64x32x32 1 := cmpf .olt main_v0 main_v1
  let main_c : IVec S_ 1 := constantI S_ 1 1#1
  let main_v3 : IVec S_ 1 := (fun x v => Host.reduce IntOp.andi x v reducesTo_S64x32x32_S_d0_1_2 h_S_) main_v2 main_c
  let main_v4 : FVec F S128x192x32 .f32 := Host.absf main_arg1
  let main_cst_0 : FVec F S_ .f32 := constant S_ .f32 0x7F800000#32
  let main_v5 : FVec F S128x192x32 .f32 := broadcastInDim S128x192x32 ![] bcast_S_S128x192x32 main_cst_0
  let main_v6 : IVec S128x192x32 1 := cmpf .olt main_v4 main_v5
  let main_c_1 : IVec S_ 1 := constantI S_ 1 1#1
  let main_v7 : IVec S_ 1 := (fun x v => Host.reduce IntOp.andi x v reducesTo_S128x192x32_S_d0_1_2 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S128x768 .f32 := Host.absf main_arg3
  let main_cst_4 : FVec F S_ .f32 := constant S_ .f32 0x7F800000#32
  let main_v15 : FVec F S128x768 .f32 := broadcastInDim S128x768 ![] bcast_S_S128x768 main_cst_4
  let main_v16 : IVec S128x768 1 := cmpf .olt main_v14 main_v15
  fn_part1 (F := F) main_v13 main_v16
-- ==== Kernel.lean ====
abbrev S64x32x32 : Shape := ⟨3, ![64, 32, 32]⟩
abbrev S128x192x32 : Shape := ⟨3, ![128, 192, 32]⟩
abbrev S64x768 : Shape := ⟨2, ![64, 768]⟩
abbrev S128x768 : Shape := ⟨2, ![128, 768]⟩
abbrev S64x32 : Shape := ⟨2, ![64, 32]⟩
abbrev S128x192 : Shape := ⟨2, ![128, 192]⟩
abbrev S64 : Shape := ⟨1, ![64]⟩
abbrev S_ : Shape := ⟨0, ![]⟩
abbrev S64x1 : Shape := ⟨2, ![64, 1]⟩
abbrev S64x2 : Shape := ⟨2, ![64, 2]⟩
abbrev S1 : Shape := ⟨1, ![1]⟩
abbrev S64x128 : Shape := ⟨2, ![64, 128]⟩
abbrev S8x32x32 : Shape := ⟨3, ![8, 32, 32]⟩
abbrev S8x32 : Shape := ⟨2, ![8, 32]⟩
abbrev S8x768 : Shape := ⟨2, ![8, 768]⟩
abbrev S8x128 : Shape := ⟨2, ![8, 128]⟩
abbrev S256x32 : Shape := ⟨2, ![256, 32]⟩
abbrev S256x1x1 : Shape := ⟨3, ![256, 1, 1]⟩
abbrev S8x32x1 : Shape := ⟨3, ![8, 32, 1]⟩
abbrev S32x192x32 : Shape := ⟨3, ![32, 192, 32]⟩
abbrev S6144x32 : Shape := ⟨2, ![6144, 32]⟩
abbrev S32x192 : Shape := ⟨2, ![32, 192]⟩
abbrev S256x6144 : Shape := ⟨2, ![256, 6144]⟩
abbrev S256x32x192 : Shape := ⟨3, ![256, 32, 192]⟩
abbrev S1x32x192 : Shape := ⟨3, ![1, 32, 192]⟩

abbrev nBuf : Space → Nat
  | .hbm => 44
  | .vmem => 14
  | .smem => 0
  | _ => 0

abbrev bufTy : (tb : Table) → Fin (tcTables nBuf tb) → BufTy
  | .hbm, ⟨0, _⟩ => ⟨S64x32x32, .f32⟩
  | .hbm, ⟨1, _⟩ => ⟨S128x192x32, .f32⟩
  | .hbm, ⟨2, _⟩ => ⟨S64x768, .f32⟩
  | .hbm, ⟨3, _⟩ => ⟨S128x768, .f32⟩
  | .hbm, ⟨4, _⟩ => ⟨S64x32, .i32⟩
  | .hbm, ⟨5, _⟩ => ⟨S128x192, .i32⟩
  | .hbm, ⟨6, _⟩ => ⟨S64x32, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64x32, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64x1, .i32⟩
  | .hbm, ⟨30, _⟩ => ⟨S64x2, .i32⟩
  | .hbm, ⟨31, _⟩ => ⟨S_, .f32⟩
  | .hbm, ⟨32, _⟩ => ⟨S64, .f32⟩
  | .hbm, ⟨33, _⟩ => ⟨S64x32, .f32⟩
  | .hbm, ⟨34, _⟩ => ⟨S_, .i32⟩
  | .hbm, ⟨35, _⟩ => ⟨S1, .i32⟩
  | .hbm, ⟨36, _⟩ => ⟨S_, .f32⟩
  | .hbm, ⟨37, _⟩ => ⟨S64, .f32⟩
  | .hbm, ⟨38, _⟩ => ⟨S64x32, .f32⟩
  | .hbm, ⟨39, _⟩ => ⟨S64x32x32, .bf16⟩
  | .hbm, ⟨40, _⟩ => ⟨S128x192x32, .bf16⟩
  | .hbm, ⟨41, _⟩ => ⟨S64x768, .bf16⟩
  | .hbm, ⟨42, _⟩ => ⟨S128x768, .bf16⟩
  | .hbm, ⟨43, _⟩ => ⟨S64x128, .f32⟩
  | .local _ .vmem, ⟨0, _⟩ => ⟨S8x32x32, .bf16⟩
  | .local _ .vmem, ⟨1, _⟩ => ⟨S8x32x32, .bf16⟩
  | .local _ .vmem, ⟨2, _⟩ => ⟨S8x32, .i32⟩
  | .local _ .vmem, ⟨3, _⟩ => ⟨S8x32, .i32⟩
  | .local _ .vmem, ⟨4, _⟩ => ⟨S8x32, .f32⟩
  | .local _ .vmem, ⟨5, _⟩ => ⟨S8x32, .f32⟩
  | .local _ .vmem, ⟨6, _⟩ => ⟨S8x768, .bf16⟩
  | .local _ .vmem, ⟨7, _⟩ => ⟨S8x768, .bf16⟩
  | .local _ .vmem, ⟨8, _⟩ => ⟨S128x192x32, .bf16⟩
  | .local _ .vmem, ⟨9, _⟩ => ⟨S128x192, .i32⟩
  | .local _ .vmem, ⟨10, _⟩ => ⟨S128x768, .bf16⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x192x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S64x32_S64_d1 : S64x32.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S1 : S_.BroadcastsInDim S1 (![] : Fin 0 → Fin S1.rank)
  bitsLt_bf16_f32 : FTy.bits .bf16 < FTy.bits .f32
  inb_S8x32x32_S8x32x32_0_0_0 : ∀ a, (![0, 0, 0] : Fin 3 → Nat) a + S8x32x32.size a ≤ S8x32x32.size a
  h_S8x32x32 : 0 < S8x32x32.numel
  shapeCasts_S8x32x32_S8x32x32 : S8x32x32.ShapeCasts S8x32x32
  shapeCasts_S8x32x32_S256x32 : S8x32x32.ShapeCasts S256x32
  inb_S8x32_S8x32_0_0 : ∀ a, (![0, 0] : Fin 2 → Nat) a + S8x32.size a ≤ S8x32.size a
  h_S8x32 : 0 < S8x32.numel
  shapeCasts_S8x32_S256x1x1 : S8x32.ShapeCasts S256x1x1
  shapeCasts_S8x32_S8x32 : S8x32.ShapeCasts S8x32
  shapeCasts_S8x32_S8x32x1 : S8x32.ShapeCasts S8x32x1
  inb_S128x192x32_S32x192x32_0_0_0 : ∀ a, (![0, 0, 0] : Fin 3 → Nat) a + S32x192x32.size a ≤ S128x192x32.size a
  h_S32x192x32 : 0 < S32x192x32.numel
  shapeCasts_S32x192x32_S32x192x32 : S32x192x32.ShapeCasts S32x192x32
  shapeCasts_S32x192x32_S6144x32 : S32x192x32.ShapeCasts S6144x32
  inb_S128x192_S32x192_0_0 : ∀ a, (![0, 0] : Fin 2 → Nat) a + S32x192.size a ≤ S128x192.size a
  h_S32x192 : 0 < S32x192.numel
  shapeCasts_S256x6144_S256x32x192 : S256x6144.ShapeCasts S256x32x192
  shapeCasts_S32x192_S1x32x192 : S32x192.ShapeCasts S1x32x192
  broadcasts_S256x1x1_S256x32x192 : S256x1x1.Broadcasts S256x32x192
  broadcasts_S1x32x192_S256x32x192 : S1x32x192.Broadcasts S256x32x192
  reduces_S256x32x192_S256x32 : S256x32x192.Reduces [2] S256x32
  shapeCasts_S256x32_S8x32x32 : S256x32.ShapeCasts S8x32x32
  broadcasts_S8x32x1_S8x32x32 : S8x32x1.Broadcasts S8x32x32
  reduces_S8x32x32_S8x32 : S8x32x32.Reduces [1] S8x32
  inb_S8x128_S8x32_0_0 : ∀ a, (![0, 0] : Fin 2 → Nat) a + S8x32.size a ≤ S8x128.size a
  inb_S128x192x32_S32x192x32_32_0_0 : ∀ a, (![32, 0, 0] : Fin 3 → Nat) a + S32x192x32.size a ≤ S128x192x32.size a
  inb_S128x192_S32x192_32_0 : ∀ a, (![32, 0] : Fin 2 → Nat) a + S32x192.size a ≤ S128x192.size a
  inb_S8x128_S8x32_0_32 : ∀ a, (![0, 32] : Fin 2 → Nat) a + S8x32.size a ≤ S8x128.size a
  inb_S128x192x32_S32x192x32_64_0_0 : ∀ a, (![64, 0, 0] : Fin 3 → Nat) a + S32x192x32.size a ≤ S128x192x32.size a
  inb_S128x192_S32x192_64_0 : ∀ a, (![64, 0] : Fin 2 → Nat) a + S32x192.size a ≤ S128x192.size a
  inb_S8x128_S8x32_0_64 : ∀ a, (![0, 64] : Fin 2 → Nat) a + S8x32.size a ≤ S8x128.size a
  inb_S128x192x32_S32x192x32_96_0_0 : ∀ a, (![96, 0, 0] : Fin 3 → Nat) a + S32x192x32.size a ≤ S128x192x32.size a
  inb_S128x192_S32x192_96_0 : ∀ a, (![96, 0] : Fin 2 → Nat) a + S32x192.size a ≤ S128x192.size a
  inb_S8x128_S8x32_0_96 : ∀ a, (![0, 96] : Fin 2 → Nat) a + S8x32.size a ≤ S8x128.size a
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S8x128_S8x128_0_0 : ∀ a, (![0, 0] : Fin 2 → Nat) a + S8x128.size a ≤ S8x128.size a
  h_S8x128 : 0 < S8x128.numel
  scatter_S64x32_S64x2_S64_n_01_01_1_wf : ScatterDims.WF S64x32 S64x2 S64 [] [0, 1] [0, 1] 1
  scatter_S64x32_S1_S64_0_1_1_0_wf : ScatterDims.WF S64x32 S1 S64 [0] [1] [1] 0
  dot_S256x32_S6144x32_S256x6144_1_1_0_0_n_n_wf : DotDims.WF S256x32 S6144x32 S256x6144 [1] [1] [0] [0] [] []
  dot_S8x768_S128x768_S8x128_1_1_0_0_n_n_wf : DotDims.WF S8x768 S128x768 S8x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32.size a ≤ S64x32x32.size a
  hwx0_0 : ∀ i : grid0.Coords, EltTy.bits .bf16 = 32 ∨ (Rect.block (s := S64x32x32) S8x32x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S64x32.size a
  hwx0_1 : ∀ i : grid0.Coords, EltTy.bits .i32 = 32 ∨ (Rect.block (s := S64x32) S8x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S64x32.size a
  hwx0_2 : ∀ i : grid0.Coords, EltTy.bits .f32 = 32 ∨ (Rect.block (s := S64x32) S8x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x768.size a ≤ S64x768.size a
  hwx0_3 : ∀ i : grid0.Coords, EltTy.bits .bf16 = 32 ∨ (Rect.block (s := S64x768) S8x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x192x32.size a ≤ S128x192x32.size a
  hwx0_4 : ∀ i : grid0.Coords, EltTy.bits .bf16 = 32 ∨ (Rect.block (s := S128x192x32) S128x192x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x192.size a ≤ S128x192.size a
  hwx0_5 : ∀ i : grid0.Coords, EltTy.bits .i32 = 32 ∨ (Rect.block (s := S128x192) S128x192.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x768.size a ≤ S128x768.size a
  hwx0_6 : ∀ i : grid0.Coords, EltTy.bits .bf16 = 32 ∨ (Rect.block (s := S128x768) S128x768.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S64x128.size a
  hwx0_7 : ∀ i : grid0.Coords, EltTy.bits .f32 = 32 ∨ (Rect.block (s := S64x128) S8x128.size (cc0_transform_7 i) (hinb0_7 i)).WholeWords (EltTy.packing .f32)

variable [Facts₀]

def scatter_S64x32_S64x2_S64_n_01_01_1 : ScatterDims S64x32 S64x2 S64 where
  updateWindowDims := []
  insertedWindowDims := [0, 1]
  scatterDimsToOperandDims := [0, 1]
  indexVectorDim := 1
  wf := scatter_S64x32_S64x2_S64_n_01_01_1_wf
def scatter_S64x32_S1_S64_0_1_1_0 : ScatterDims S64x32 S1 S64 where
  updateWindowDims := [0]
  insertedWindowDims := [1]
  scatterDimsToOperandDims := [1]
  indexVectorDim := 0
  wf := scatter_S64x32_S1_S64_0_1_1_0_wf
def dot_S256x32_S6144x32_S256x6144_1_1_0_0_n_n : DotDims S256x32 S6144x32 S256x6144 where
  lhsContracting := [1]
  rhsContracting := [1]
  lhsNonContracting := [0]
  rhsNonContracting := [0]
  lhsBatch := []
  rhsBatch := []
  wf := dot_S256x32_S6144x32_S256x6144_1_1_0_0_n_n_wf
def dot_S8x768_S128x768_S8x128_1_1_0_0_n_n : DotDims S8x768 S128x768 S8x128 where
  lhsContracting := [1]
  rhsContracting := [1]
  lhsNonContracting := [0]
  rhsNonContracting := [0]
  lhsBatch := []
  rhsBatch := []
  wf := dot_S8x768_S128x768_S8x128_1_1_0_0_n_n_wf

abbrev win0_0 : Pipeline.Window sig grid0 :=
  Pipeline.Window.ofSpec (Memref.whole main_v23) S8x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x192x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S128x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x32x32 : Shape := ⟨3, ![64, 32, 32]⟩
abbrev S128x192x32 : Shape := ⟨3, ![128, 192, 32]⟩
abbrev S64x768 : Shape := ⟨2, ![64, 768]⟩
abbrev S128x768 : Shape := ⟨2, ![128, 768]⟩
abbrev S64x32 : Shape := ⟨2, ![64, 32]⟩
abbrev S128x192 : Shape := ⟨2, ![128, 192]⟩
abbrev S_ : Shape := ⟨0, ![]⟩
abbrev S64 : Shape := ⟨1, ![64]⟩
abbrev S64x1 : Shape := ⟨2, ![64, 1]⟩
abbrev S64x2 : Shape := ⟨2, ![64, 2]⟩
abbrev S64x32x128x192 : Shape := ⟨4, ![64, 32, 128, 192]⟩
abbrev S64x32x1x1 : Shape := ⟨4, ![64, 32, 1, 1]⟩
abbrev S1x1x128x192 : Shape := ⟨4, ![1, 1, 128, 192]⟩
abbrev S64x32x128 : Shape := ⟨3, ![64, 32, 128]⟩
abbrev S64x32x1 : Shape := ⟨3, ![64, 32, 1]⟩
abbrev S64x31x128 : Shape := ⟨3, ![64, 31, 128]⟩
abbrev S64x128 : Shape := ⟨2, ![64, 128]⟩
abbrev S768x128 : Shape := ⟨2, ![768, 128]⟩

abbrev nBuf : Space → Nat
  | .hbm => 54
  | .vmem => 0
  | .smem => 0
  | _ => 0

abbrev bufTy : (tb : Table) → Fin (tcTables nBuf tb) → BufTy
  | .hbm, ⟨0, _⟩ => ⟨S64x32x32, .f32⟩
  | .hbm, ⟨1, _⟩ => ⟨S128x192x32, .f32⟩
  | .hbm, ⟨2, _⟩ => ⟨S64x768, .f32⟩
  | .hbm, ⟨3, _⟩ => ⟨S128x768, .f32⟩
  | .hbm, ⟨4, _⟩ => ⟨S64x32, .i32⟩
  | .hbm, ⟨5, _⟩ => ⟨S128x192, .i32⟩
  | .hbm, ⟨6, _⟩ => ⟨S64x32, .i32⟩
  | .hbm, ⟨7, _⟩ => ⟨S_, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S64x1, .i32⟩
  | .hbm, ⟨29, _⟩ => ⟨S64x2, .i32⟩
  | .hbm, ⟨30, _⟩ => ⟨S_, .i32⟩
  | .hbm, ⟨31, _⟩ => ⟨S64, .i32⟩
  | .hbm, ⟨32, _⟩ => ⟨S64x32, .i32⟩
  | .hbm, ⟨33, _⟩ => ⟨S64x32, .f32⟩
  | .hbm, ⟨34, _⟩ => ⟨S64x32x128x192, .f32⟩
  | .hbm, ⟨35, _⟩ => ⟨S64x32x1x1, .i32⟩
  | .hbm, ⟨36, _⟩ => ⟨S1x1x128x192, .i32⟩
  | .hbm, ⟨37, _⟩ => ⟨S64x32x128x192, .i32⟩
  | .hbm, ⟨38, _⟩ => ⟨S64x32x128x192, .i32⟩
  | .hbm, ⟨39, _⟩ => ⟨S64x32x128x192, .i1⟩
  | .hbm, ⟨40, _⟩ => ⟨S_, .f32⟩
  | .hbm, ⟨41, _⟩ => ⟨S64x32x128x192, .f32⟩
  | .hbm, ⟨42, _⟩ => ⟨S64x32x128x192, .f32⟩
  | .hbm, ⟨43, _⟩ => ⟨S_, .f32⟩
  | .hbm, ⟨44, _⟩ => ⟨S64x32x128, .f32⟩
  | .hbm, ⟨45, _⟩ => ⟨S64x32x1, .f32⟩
  | .hbm, ⟨46, _⟩ => ⟨S64x32x128, .f32⟩
  | .hbm, ⟨47, _⟩ => ⟨S64x32x128, .f32⟩
  | .hbm, ⟨48, _⟩ => ⟨S64x31x128, .f32⟩
  | .hbm, ⟨49, _⟩ => ⟨S_, .f32⟩
  | .hbm, ⟨50, _⟩ => ⟨S64x128, .f32⟩
  | .hbm, ⟨51, _⟩ => ⟨S768x128, .f32⟩
  | .hbm, ⟨52, _⟩ => ⟨S64x128, .f32⟩
  | .hbm, ⟨53, _⟩ => ⟨S64x128, .f32⟩
  | _, _ => ⟨S64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_call0_v0 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  reducesTo_S64x32_S64_d1 : S64x32.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x32_S64x32x1x1_0_1 : S64x32.BroadcastsInDim S64x32x1x1 (![0, 1] : Fin 2 → Fin S64x32x1x1.rank)
  bcast_S128x192_S1x1x128x192_2_3 : S128x192.BroadcastsInDim S1x1x128x192 (![2, 3] : Fin 2 → Fin S1x1x128x192.rank)
  bcast_S64x32x1x1_S64x32x128x192_0_1_2_3 : S64x32x1x1.BroadcastsInDim S64x32x128x192 (![0, 1, 2, 3] : Fin 4 → Fin S64x32x128x192.rank)
  bcast_S1x1x128x192_S64x32x128x192_0_1_2_3 : S1x1x128x192.BroadcastsInDim S64x32x128x192 (![0, 1, 2, 3] : Fin 4 → Fin S64x32x128x192.rank)
  bcast_S_S64x32x128x192 : S_.BroadcastsInDim S64x32x128x192 (![] : Fin 0 → Fin S64x32x128x192.rank)
  reducesTo_S64x32x128x192_S64x32x128_d3 : S64x32x128x192.ReducesTo [3] S64x32x128
  bcast_S64x32_S64x32x1_0_1 : S64x32.BroadcastsInDim S64x32x1 (![0, 1] : Fin 2 → Fin S64x32x1.rank)
  bcast_S64x32x1_S64x32x128_0_1_2 : S64x32x1.BroadcastsInDim S64x32x128 (![0, 1, 2] : Fin 3 → Fin S64x32x128.rank)
  slices_S64x32x128_S64x31x128_0_1_0 : S64x32x128.Slices ![0, 1, 0] S64x31x128
  reducesTo_S64x31x128_S64x128_d1 : S64x31x128.ReducesTo [1] S64x128
  transposes_S128x768_S768x128_1_0 : S128x768.Transposes [1, 0] S768x128
  scatter_S64x32_S64x2_S64_n_01_01_1_wf : ScatterDims.WF S64x32 S64x2 S64 [] [0, 1] [0, 1] 1
  dot_S64x32x32_S128x192x32_S64x32x128x192_2_2_01_01_n_n_wf : DotDims.WF S64x32x32 S128x192x32 S64x32x128x192 [2] [2] [0, 1] [0, 1] [] []
  dot_S64x768_S768x128_S64x128_1_0_0_1_n_n_wf : DotDims.WF S64x768 S768x128 S64x128 [1] [0] [0] [1] [] []

variable [Facts₀]

def scatter_S64x32_S64x2_S64_n_01_01_1 : ScatterDims S64x32 S64x2 S64 where
  updateWindowDims := []
  insertedWindowDims := [0, 1]
  scatterDimsToOperandDims := [0, 1]
  indexVectorDim := 1
  wf := scatter_S64x32_S64x2_S64_n_01_01_1_wf
def dot_S64x32x32_S128x192x32_S64x32x128x192_2_2_01_01_n_n : DotDims S64x32x32 S128x192x32 S64x32x128x192 where
  lhsContracting := [2]
  rhsContracting := [2]
  lhsNonContracting := [0, 1]
  rhsNonContracting := [0, 1]
  lhsBatch := []
  rhsBatch := []
  wf := dot_S64x32x32_S128x192x32_S64x32x128x192_2_2_01_01_n_n_wf
def dot_S64x768_S768x128_S64x128_1_0_0_1_n_n : DotDims S64x768 S768x128 S64x128 where
  lhsContracting := [1]
  rhsContracting := [0]
  lhsNonContracting := [0]
  rhsNonContracting := [1]
  lhsBatch := []
  rhsBatch := []
  wf := dot_S64x768_S768x128_S64x128_1_0_0_1_n_n_wf

class Facts : Prop extends Facts₀ where

variable [Facts]
-- ==== Proof.Spec.lean ====
/-
  The function both programs compute, stated once over the argument arrays, index by index, on the extended reals.

  A query row `q` and a document `d` are scored in two parts. The token part: for each query position `i` take the
  similarities `∑ e, Q[q,i,e] · D[d,j,e]` to the document's positions `j`, keep those whose token ids agree (the others
  count as `0`), take the largest over `j`, weigh it by `W[q,i]`, and add over the positions `i`. The class part: the
  dot product of the two class embeddings. The definitions are generic in the number `nq` of query rows, so that one
  text serves the whole array (`nq = 64`) and a block of eight rows (`nq = 8`).

  The one law used: when the weight of position `0` is zero, the sum over all 32 positions is the sum over the last 31
  (`x · 0 = 0` and `0 + y = y` on every extended real, the infinities included: no finiteness is needed).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The similarity of query token `(q, i)` and document token `(d, j)`: their dot product over the 32 features. -/
def sim {nq nd : Nat} (Q : (⟨3, ![nq, 32, 32]⟩ : Shape).Idx → EReal) (D : (⟨3, ![nd, 192, 32]⟩ : Shape).Idx → EReal)
    (q : Fin nq) (i : Fin 32) (d : Fin nd) (j : Fin 192) : EReal :=
  ∑ e : Fin 32, Q (ix3 q i e) * D (ix3 d j e)

/-- The similarity where the two token ids agree, the f32 zero word's value elsewhere. -/
def msim {nq nd : Nat} (Q : (⟨3, ![nq, 32, 32]⟩ : Shape).Idx → EReal) (D : (⟨3, ![nd, 192, 32]⟩ : Shape).Idx → EReal)
    (qid : (⟨2, ![nq, 32]⟩ : Shape).Idx → BitVec 32) (did : (⟨2, ![nd, 192]⟩ : Shape).Idx → BitVec 32)
    (q : Fin nq) (i : Fin 32) (d : Fin nd) (j : Fin 192) : EReal :=
  Scalar.select (IntOp.cmpi .eq (qid (ix2 q i)) (did (ix2 d j))) (sim Q D q i d j) (Ideal.ofBits .f32 0x00000000#32)

/-- The largest masked similarity over the document's 192 positions, from the value of the word `0xFF800000` (−∞). -/
def tok {nq nd : Nat} (Q : (⟨3, ![nq, 32, 32]⟩ : Shape).Idx → EReal) (D : (⟨3, ![nd, 192, 32]⟩ : Shape).Idx → EReal)
    (qid : (⟨2, ![nq, 32]⟩ : Shape).Idx → BitVec 32) (did : (⟨2, ![nd, 192]⟩ : Shape).Idx → BitVec 32)
    (q : Fin nq) (i : Fin 32) (d : Fin nd) : EReal :=
  (Finset.univ : Finset (Fin 192)).fold max (Ideal.ofBits .f32 0xFF800000#32) (fun j => msim Q D qid did q i d j)

/-- The class part: the dot product of the two class embeddings over their 768 features. -/
def cls {nq nd : Nat} (A : (⟨2, ![nq, 768]⟩ : Shape).Idx → EReal) (B : (⟨2, ![nd, 768]⟩ : Shape).Idx → EReal)
    (q : Fin nq) (d : Fin nd) : EReal :=
  ∑ e : Fin 768, A (ix2 q e) * B (ix2 d e)

/-- The weighted token part, over all 32 query positions. -/
def tokSum {nq nd : Nat} (Q : (⟨3, ![nq, 32, 32]⟩ : Shape).Idx → EReal) (D : (⟨3, ![nd, 192, 32]⟩ : Shape).Idx → EReal)
    (qid : (⟨2, ![nq, 32]⟩ : Shape).Idx → BitVec 32) (did : (⟨2, ![nd, 192]⟩ : Shape).Idx → BitVec 32)
    (W : (⟨2, ![nq, 32]⟩ : Shape).Idx → EReal) (q : Fin nq) (d : Fin nd) : EReal :=
  ∑ i : Fin 32, tok Q D qid did q i d * W (ix2 q i)

/-- The score of query row `q` against document `d`. -/
def score {nq nd : Nat} (Q : (⟨3, ![nq, 32, 32]⟩ : Shape).Idx → EReal) (D : (⟨3, ![nd, 192, 32]⟩ : Shape).Idx → EReal)
    (A : (⟨2, ![nq, 768]⟩ : Shape).Idx → EReal) (B : (⟨2, ![nd, 768]⟩ : Shape).Idx → EReal)
    (qid : (⟨2, ![nq, 32]⟩ : Shape).Idx → BitVec 32) (did : (⟨2, ![nd, 192]⟩ : Shape).Idx → BitVec 32)
    (W : (⟨2, ![nq, 32]⟩ : Shape).Idx → EReal) (q : Fin nq) (d : Fin nd) : EReal :=
  tokSum Q D qid did W q d + cls A B q d

/-- With a zero weight at position `0`, and weights that agree with `W'` from position `1` on, the weighted sum over
    all 32 positions is the zero word's value plus the sum over the last 31 positions weighted by `W'`. -/
theorem tokSum_eq_tail {nq nd : Nat} (Q : (⟨3, ![nq, 32, 32]⟩ : Shape).Idx → EReal) (D : (⟨3, ![nd, 192, 32]⟩ : Shape).Idx → EReal)
    (qid : (⟨2, ![nq, 32]⟩ : Shape).Idx → BitVec 32) (did : (⟨2, ![nd, 192]⟩ : Shape).Idx → BitVec 32)
    (W W' : (⟨2, ![nq, 32]⟩ : Shape).Idx → EReal) (q : Fin nq) (d : Fin nd)
    (h0 : W (ix2 q (0 : Fin 32)) = 0) (hs : ∀ k : Fin 31, W (ix2 q k.succ) = W' (ix2 q k.succ)) :
    tokSum Q D qid did W q d
      = Ideal.ofBits .f32 0x00000000#32 + ∑ k : Fin 31, tok Q D qid did q k.succ d * W' (ix2 q k.succ) := by
  unfold tokSum
  rw [Fin.sum_univ_succ, h0, mul_zero, Ideal.ofBits_zero_f32]
  exact congrArg (0 + ·) (Finset.sum_congr rfl fun k _ => by rw [hs k])

/-- The weighted token part reads its arrays only on query row `q` and document row `d`: two families of arrays that
    agree there (whatever their extents: a block of rows against the whole array) give the same value. -/
theorem tokSum_congr {nq nq' nd nd' : Nat}
    (Q : (⟨3, ![nq, 32, 32]⟩ : Shape).Idx → EReal) (D : (⟨3, ![nd, 192, 32]⟩ : Shape).Idx → EReal)
    (qid : (⟨2, ![nq, 32]⟩ : Shape).Idx → BitVec 32) (did : (⟨2, ![nd, 192]⟩ : Shape).Idx → BitVec 32)
    (W : (⟨2, ![nq, 32]⟩ : Shape).Idx → EReal)
    (Q' : (⟨3, ![nq', 32, 32]⟩ : Shape).Idx → EReal) (D' : (⟨3, ![nd', 192, 32]⟩ : Shape).Idx → EReal)
    (qid' : (⟨2, ![nq', 32]⟩ : Shape).Idx → BitVec 32) (did' : (⟨2, ![nd', 192]⟩ : Shape).Idx → BitVec 32)
    (W' : (⟨2, ![nq', 32]⟩ : Shape).Idx → EReal)
    (q : Fin nq) (q' : Fin nq') (d : Fin nd) (d' : Fin nd')
    (hQ : ∀ (i : Fin 32) (e : Fin 32), Q (ix3 q i e) = Q' (ix3 q' i e))
    (hD : ∀ (j : Fin 192) (e : Fin 32), D (ix3 d j e) = D' (ix3 d' j e))
    (hqid : ∀ i : Fin 32, qid (ix2 q i) = qid' (ix2 q' i))
    (hdid : ∀ j : Fin 192, did (ix2 d j) = did' (ix2 d' j))
    (hW : ∀ i : Fin 32, W (ix2 q i) = W' (ix2 q' i)) :
    tokSum Q D qid did W q d = tokSum Q' D' qid' did' W' q' d' := by
  unfold tokSum tok msim sim
  simp only [hQ, hD, hqid, hdid, hW]

/-- The class part likewise reads only row `q` of the one array and row `d` of the other. -/
theorem cls_congr {nq nq' nd nd' : Nat}
    (A : (⟨2, ![nq, 768]⟩ : Shape).Idx → EReal) (B : (⟨2, ![nd, 768]⟩ : Shape).Idx → EReal)
    (A' : (⟨2, ![nq', 768]⟩ : Shape).Idx → EReal) (B' : (⟨2, ![nd', 768]⟩ : Shape).Idx → EReal)
    (q : Fin nq) (q' : Fin nq') (d : Fin nd) (d' : Fin nd')
    (hA : ∀ e : Fin 768, A (ix2 q e) = A' (ix2 q' e)) (hB : ∀ e : Fin 768, B (ix2 d e) = B' (ix2 d' e)) :
    cls A B q d = cls A' B' q' d' := by
  unfold cls
  simp only [hA, hB]

/-- So does the score. -/
theorem score_congr {nq nq' nd nd' : Nat}
    (Q : (⟨3, ![nq, 32, 32]⟩ : Shape).Idx → EReal) (D : (⟨3, ![nd, 192, 32]⟩ : Shape).Idx → EReal)
    (A : (⟨2, ![nq, 768]⟩ : Shape).Idx → EReal) (B : (⟨2, ![nd, 768]⟩ : Shape).Idx → EReal)
    (qid : (⟨2, ![nq, 32]⟩ : Shape).Idx → BitVec 32) (did : (⟨2, ![nd, 192]⟩ : Shape).Idx → BitVec 32)
    (W : (⟨2, ![nq, 32]⟩ : Shape).Idx → EReal)
    (Q' : (⟨3, ![nq', 32, 32]⟩ : Shape).Idx → EReal) (D' : (⟨3, ![nd', 192, 32]⟩ : Shape).Idx → EReal)
    (A' : (⟨2, ![nq', 768]⟩ : Shape).Idx → EReal) (B' : (⟨2, ![nd', 768]⟩ : Shape).Idx → EReal)
    (qid' : (⟨2, ![nq', 32]⟩ : Shape).Idx → BitVec 32) (did' : (⟨2, ![nd', 192]⟩ : Shape).Idx → BitVec 32)
    (W' : (⟨2, ![nq', 32]⟩ : Shape).Idx → EReal)
    (q : Fin nq) (q' : Fin nq') (d : Fin nd) (d' : Fin nd')
    (hQ : ∀ (i : Fin 32) (e : Fin 32), Q (ix3 q i e) = Q' (ix3 q' i e))
    (hD : ∀ (j : Fin 192) (e : Fin 32), D (ix3 d j e) = D' (ix3 d' j e))
    (hA : ∀ e : Fin 768, A (ix2 q e) = A' (ix2 q' e)) (hB : ∀ e : Fin 768, B (ix2 d e) = B' (ix2 d' e))
    (hqid : ∀ i : Fin 32, qid (ix2 q i) = qid' (ix2 q' i))
    (hdid : ∀ j : Fin 192, did (ix2 d j) = did' (ix2 d' j))
    (hW : ∀ i : Fin 32, W (ix2 q i) = W' (ix2 q' i)) :
    score Q D A B qid did W q d = score Q' D' A' B' qid' did' W' q' d' := by
  unfold score
  rw [tokSum_congr Q D qid did W Q' D' qid' did' W' q q' d d' hQ hD hqid hdid hW,
    cls_congr A B A' B' q q' d d' hA hB]

end Cert.Spec

end
-- ==== Proof.KernelPay.lean ====
/-
  The kernel body's stored values, read at an index on the extended reals.

  The body handles the 128 documents in four chunks of 32. For a chunk it multiplies the 256 query tokens of the block
  (8 rows × 32 positions, flattened) with the chunk's 6144 document tokens (32 documents × 192 positions, flattened),
  keeps the products whose token ids agree, takes the largest over a document's 192 positions, weighs by the
  position's weight and adds over the 32 positions: at `(b, dd)` that is `Spec.tokSum` of the block's row `b` against
  the chunk's document `dd`. The last store adds the class dot product to what the scratch accumulator holds.
-/
import proofs.«106891_j15118284882567_1_alg».proof.Proof.Gen.KernelIdeal.Skeleton
import proofs.«106891_j15118284882567_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The block's 256 query tokens against a chunk's 6144 document tokens: all the dot products over the 32 features. -/
def mm (v2 : FVec Ideal S256x32 .bf16) (v10 : FVec Ideal S6144x32 .bf16) : FVec Ideal S256x6144 .f32 :=
  matmul dot_S256x32_S6144x32_S256x6144_1_1_0_0_n_n none v2 v10 (constant S256x6144 .f32 0x00000000#32)

/-- The same products, the document tokens split into document and position. -/
def mm3 (v2 : FVec Ideal S256x32 .bf16) (v10 : FVec Ideal S6144x32 .bf16) : FVec Ideal S256x32x192 .f32 :=
  shapeCast S256x32x192 (mm v2 v10) shapeCasts_S256x6144_S256x32x192

/-- Where the query token's id and the document token's id agree. -/
def msk (v4 : IVec S256x1x1 32) (v11 : IVec S32x192 32) : IVec S256x32x192 1 :=
  cmpi .eq (broadcastTo S256x32x192 v4 broadcasts_S256x1x1_S256x32x192)
    (broadcastTo S256x32x192 (shapeCast S1x32x192 v11 shapeCasts_S32x192_S1x32x192) broadcasts_S1x32x192_S256x32x192)

/-- The common computation of a chunk, from the products. -/
def chunkOf (v4 : IVec S256x1x1 32) (v7 : FVec Ideal S8x32x1 .f32) (v11 : IVec S32x192 32)
    (p : FVec Ideal S256x32x192 .f32) : FVec Ideal S8x32 .f32 :=
  shapeCast S8x32
    (multiReduction .add [1] S8x32
      (mulf
        (shapeCast S8x32x32
          (multiReduction .maximumf [2] S256x32
            (select (msk v4 v11) p (broadcast S256x32x192 (Scalar.ofBits (F := Ideal) .f32 0x00000000#32)))
            0xFF800000#32 reduces_S256x32x192_S256x32 (.inl rfl) rfl)
          shapeCasts_S256x32_S8x32x32)
        (broadcastTo S8x32x32 v7 broadcasts_S8x32x1_S8x32x32))
      0x00000000#32 reduces_S8x32x32_S8x32 (.inl rfl) rfl)
    shapeCasts_S8x32_S8x32

theorem pay7_eq (v0 : Vec Ideal S8x32x32 .bf16) (v28 : Vec Ideal S32x192x32 .bf16) :
    k0_pay7 (F := Ideal) v0 v28 = mm3 (k0_pay3 (F := Ideal) v0) (k0_pay10 (F := Ideal) v28) := rfl

theorem pay6_eq (v0 : Vec Ideal S8x32x32 .bf16) (v3 : Vec Ideal S8x32 .i32) (v5 : Vec Ideal S8x32 .f32)
    (v8 : Vec Ideal S32x192x32 .bf16) (v11 : Vec Ideal S32x192 .i32) :
    k0_pay6 (F := Ideal) v0 v3 v5 v8 v11
      = chunkOf (k0_pay4 (F := Ideal) v3) (k0_pay5 (F := Ideal) v5) v11 (mm3 (k0_pay3 (F := Ideal) v0) (k0_pay10 (F := Ideal) v8)) := rfl

theorem pay8_eq (v4 : IVec S256x1x1 32) (v7 : FVec Ideal S8x32x1 .f32) (v31 : Vec Ideal S32x192 .i32)
    (v33 : FVec Ideal S256x32x192 .f32) :
    k0_pay8 (F := Ideal) v4 v7 v31 v33 = chunkOf v4 v7 v31 v33 := rfl

theorem pay9_eq (v2 : FVec Ideal S256x32 .bf16) (v4 : IVec S256x1x1 32) (v7 : FVec Ideal S8x32x1 .f32)
    (v48 : Vec Ideal S32x192x32 .bf16) (v51 : Vec Ideal S32x192 .i32) :
    k0_pay9 (F := Ideal) v2 v4 v7 v48 v51 = chunkOf v4 v7 v51 (mm3 v2 (k0_pay10 (F := Ideal) v48)) := rfl

theorem pay1_eq (v2 : FVec Ideal S256x32 .bf16) (v4 : IVec S256x1x1 32) (v7 : FVec Ideal S8x32x1 .f32)
    (v70 : FVec Ideal S6144x32 .bf16) (v71 : Vec Ideal S32x192 .i32) :
    k0_pay1 (F := Ideal) v2 v4 v7 v70 v71 = chunkOf v4 v7 v71 (mm3 v2 v70) := rfl

/-! ### The matmul at an index -/

theorem lhs_mm_0 (i : S256x6144.Idx) (q : dot_S256x32_S6144x32_S256x6144_1_1_0_0_n_n.contr.Idx) :
    (dot_S256x32_S6144x32_S256x6144_1_1_0_0_n_n.lhsIdx i q 0).val = (i 0).val := by
  unfold DotDims.lhsIdx
  rw [dif_neg (show ¬(0 : Fin S256x32.rank) ∈ dot_S256x32_S6144x32_S256x6144_1_1_0_0_n_n.lhsBatch by decide), dif_pos (show (0 : Fin S256x32.rank) ∈ dot_S256x32_S6144x32_S256x6144_1_1_0_0_n_n.lhsNonContracting by decide)]
  rfl
theorem lhs_mm_1 (i : S256x6144.Idx) (q : dot_S256x32_S6144x32_S256x6144_1_1_0_0_n_n.contr.Idx) :
    (dot_S256x32_S6144x32_S256x6144_1_1_0_0_n_n.lhsIdx i q 1).val = (q ⟨0, by decide⟩).val :=
  dot_S256x32_S6144x32_S256x6144_1_1_0_0_n_n.lhsIdx_val_of_single rfl i q
theorem rhs_mm_0 (i : S256x6144.Idx) (q : dot_S256x32_S6144x32_S256x6144_1_1_0_0_n_n.contr.Idx) :
    (dot_S256x32_S6144x32_S256x6144_1_1_0_0_n_n.rhsIdx i q 0).val = (i 1).val := by
  unfold DotDims.rhsIdx
  rw [dif_neg (show ¬(0 : Fin S6144x32.rank) ∈ dot_S256x32_S6144x32_S256x6144_1_1_0_0_n_n.rhsBatch by decide), dif_pos (show (0 : Fin S6144x32.rank) ∈ dot_S256x32_S6144x32_S256x6144_1_1_0_0_n_n.rhsNonContracting by decide)]
  rfl
theorem rhs_mm_1 (i : S256x6144.Idx) (q : dot_S256x32_S6144x32_S256x6144_1_1_0_0_n_n.contr.Idx) :
    (dot_S256x32_S6144x32_S256x6144_1_1_0_0_n_n.rhsIdx i q 1).val = (q ⟨0, by decide⟩).val :=
  dot_S256x32_S6144x32_S256x6144_1_1_0_0_n_n.rhsIdx_val_of_single rfl i q

/-- Query token `r` against document token `n`: the sum over the 32 features of the products. -/
theorem mm_apply (v2 : FVec Ideal S256x32 .bf16) (v10 : FVec Ideal S6144x32 .bf16) (r : Fin 256) (n : Fin 6144) :
    mm v2 v10 (ix2 r n) = ∑ e : Fin 32, v2 (ix2 r e) * v10 (ix2 n e) := by
  unfold mm
  simp only [matmul]
  rw [Ideal.matmul_constant_zero_apply, ← Equiv.sum_comp (contrEquiv1 dot_S256x32_S6144x32_S256x6144_1_1_0_0_n_n 32 rfl rfl).symm]
  refine Finset.sum_congr rfl fun k _ => ?_
  have hk := contrEquiv1_symm_val dot_S256x32_S6144x32_S256x6144_1_1_0_0_n_n 32 rfl rfl k
  have el : dot_S256x32_S6144x32_S256x6144_1_1_0_0_n_n.lhsIdx (ix2 r n) ((contrEquiv1 dot_S256x32_S6144x32_S256x6144_1_1_0_0_n_n 32 rfl rfl).symm k) = ix2 r k := funext fun a => Fin.ext (by
    match a with
    | ⟨0, _⟩ => exact lhs_mm_0 _ _
    | ⟨1, _⟩ => exact (lhs_mm_1 _ _).trans hk)
  have er : dot_S256x32_S6144x32_S256x6144_1_1_0_0_n_n.rhsIdx (ix2 r n) ((contrEquiv1 dot_S256x32_S6144x32_S256x6144_1_1_0_0_n_n 32 rfl rfl).symm k) = ix2 n k := funext fun a => Fin.ext (by
    match a with
    | ⟨0, _⟩ => exact rhs_mm_0 _ _
    | ⟨1, _⟩ => exact (rhs_mm_1 _ _).trans hk)
  rw [el, er]

/-! ### Rows and columns of the flattened operands -/

/-- Row `b * 32 + i` of the 256 flattened query tokens. -/
def rowOf (b : Fin 8) (i : Fin 32) : Fin 256 := ⟨b.val * 32 + i.val, by omega⟩
/-- Row `dd * 192 + j` of the 6144 flattened document tokens. -/
def colOf (dd : Fin 32) (j : Fin 192) : Fin 6144 := ⟨dd.val * 192 + j.val, by omega⟩

theorem mm3_apply (v2 : FVec Ideal S256x32 .bf16) (v10 : FVec Ideal S6144x32 .bf16) (r : Fin 256) (dd : Fin 32) (j : Fin 192) :
    mm3 v2 v10 (ix3 r dd j) = mm v2 v10 (ix2 r (colOf dd j)) := by
  unfold mm3
  refine shapeCast_apply _ _ (ix3 r dd j) (ix2 r (colOf dd j)) ?_
  rw [Shape.rowMajor_val_two, Shape.rowMajor_val_three]
  show r.val * 6144 + (dd.val * 192 + j.val) = (r.val * 32 + dd.val) * 192 + j.val
  omega

theorem pay3_apply (v0 : Vec Ideal S8x32x32 .bf16) (b : Fin 8) (i e : Fin 32) :
    k0_pay3 (F := Ideal) v0 (ix2 (rowOf b i) e) = v0 (ix3 b i e) := by
  unfold k0_pay3
  rw [shapeCast_self]
  refine shapeCast_apply _ _ (ix2 (rowOf b i) e) (ix3 b i e) ?_
  rw [Shape.rowMajor_val_two, Shape.rowMajor_val_three]
  rfl

theorem pay10_apply (v8 : Vec Ideal S32x192x32 .bf16) (dd : Fin 32) (j : Fin 192) (e : Fin 32) :
    k0_pay10 (F := Ideal) v8 (ix2 (colOf dd j) e) = v8 (ix3 dd j e) := by
  unfold k0_pay10
  rw [shapeCast_self]
  refine shapeCast_apply _ _ (ix2 (colOf dd j) e) (ix3 dd j e) ?_
  rw [Shape.rowMajor_val_two, Shape.rowMajor_val_three]
  rfl

theorem pay4_apply (v3 : Vec Ideal S8x32 .i32) (b : Fin 8) (i : Fin 32) :
    k0_pay4 (F := Ideal) v3 (ix3 (rowOf b i) (0 : Fin 1) (0 : Fin 1)) = v3 (ix2 b i) := by
  unfold k0_pay4
  refine shapeCast_apply _ _ (ix3 (rowOf b i) (0 : Fin 1) (0 : Fin 1)) (ix2 b i) ?_
  rw [Shape.rowMajor_val_two, Shape.rowMajor_val_three]
  show b.val * 32 + i.val = ((b.val * 32 + i.val) * 1 + 0) * 1 + 0
  omega

theorem pay5_apply (v5 : Vec Ideal S8x32 .f32) (b : Fin 8) (i : Fin 32) :
    k0_pay5 (F := Ideal) v5 (ix3 b i (0 : Fin 1)) = v5 (ix2 b i) := by
  unfold k0_pay5
  rw [shapeCast_self]
  refine shapeCast_apply _ _ (ix3 b i (0 : Fin 1)) (ix2 b i) ?_
  rw [Shape.rowMajor_val_two, Shape.rowMajor_val_three]
  show b.val * 32 + i.val = (b.val * 32 + i.val) * 1 + 0
  omega

/-- The mask at `(r, dd, j)` compares the id of query token `r` with the id of document `dd`'s token `j`. -/
theorem msk_apply (v4 : IVec S256x1x1 32) (v11 : IVec S32x192 32) (r : Fin 256) (dd : Fin 32) (j : Fin 192) :
    msk v4 v11 (ix3 r dd j) = IntOp.cmpi .eq (v4 (ix3 r (0 : Fin 1) (0 : Fin 1))) (v11 (ix2 dd j)) := by
  unfold msk
  show IntOp.cmpi .eq (broadcastTo S256x32x192 v4 broadcasts_S256x1x1_S256x32x192 (ix3 r dd j))
      (broadcastTo S256x32x192 (shapeCast S1x32x192 v11 shapeCasts_S32x192_S1x32x192) broadcasts_S1x32x192_S256x32x192 (ix3 r dd j)) = _
  have e1 : broadcastTo S256x32x192 v4 broadcasts_S256x1x1_S256x32x192 (ix3 r dd j) = v4 (ix3 r (0 : Fin 1) (0 : Fin 1)) :=
    broadcastTo_apply _ _ (ix3 r dd j) (ix3 r (0 : Fin 1) (0 : Fin 1)) (fun a => by
      match a with | ⟨0, _⟩ => rfl | ⟨1, _⟩ => rfl | ⟨2, _⟩ => rfl)
  have e2 : broadcastTo S256x32x192 (shapeCast S1x32x192 v11 shapeCasts_S32x192_S1x32x192) broadcasts_S1x32x192_S256x32x192 (ix3 r dd j)
      = v11 (ix2 dd j) := by
    refine (broadcastTo_apply _ _ (ix3 r dd j) (ix3 (0 : Fin 1) dd j) (fun a => by
      match a with | ⟨0, _⟩ => rfl | ⟨1, _⟩ => rfl | ⟨2, _⟩ => rfl)).trans ?_
    refine shapeCast_apply _ _ (ix3 (0 : Fin 1) dd j) (ix2 dd j) ?_
    rw [Shape.rowMajor_val_two, Shape.rowMajor_val_three]
    show dd.val * 192 + j.val = (0 * 32 + dd.val) * 192 + j.val
    omega
  rw [e1, e2]

/-! ### The two reductions at an index -/

theorem redAdd_apply (src : FVec Ideal S8x32x32 .f32) (b : Fin 8) (dd : Fin 32) :
    multiReduction .add [1] S8x32 src 0x00000000#32 reduces_S8x32x32_S8x32 (.inl rfl) rfl (ix2 b dd)
      = ∑ i : Fin 32, src (ix3 b i dd) := by
  refine (Ideal.multiReduction_add_single src 0x00000000#32 reduces_S8x32x32_S8x32 (.inl rfl) rfl (ix2 b dd)).trans ?_
  refine Finset.sum_congr rfl fun i _ => congrArg src (funext fun a => Fin.ext ?_)
  match a with | ⟨0, _⟩ => rfl | ⟨1, _⟩ => rfl | ⟨2, _⟩ => rfl

theorem redMax_apply (src : FVec Ideal S256x32x192 .f32) (r : Fin 256) (dd : Fin 32) :
    multiReduction .maximumf [2] S256x32 src 0xFF800000#32 reduces_S256x32x192_S256x32 (.inl rfl) rfl (ix2 r dd)
      = (Finset.univ : Finset (Fin 192)).fold max (Ideal.ofBits .f32 0xFF800000#32) (fun j => src (ix3 r dd j)) := by
  refine (Ideal.multiReduction_maximumf_single src 0xFF800000#32 reduces_S256x32x192_S256x32 (.inl rfl) rfl (ix2 r dd)).trans ?_
  have e : (src ∘ reduces_S256x32x192_S256x32.lift (ix2 r dd)) = fun j : Fin 192 => src (ix3 r dd j) :=
    funext fun j => congrArg src (funext fun a => Fin.ext (by
      match a with | ⟨0, _⟩ => rfl | ⟨1, _⟩ => rfl | ⟨2, _⟩ => rfl))
  exact congrArg (fun f => (Finset.univ : Finset (Fin 192)).fold max (Ideal.ofBits .f32 0xFF800000#32) f) e

/-! ### A chunk's value at `(b, dd)` -/

/-- From the products `p`: over the 32 positions `i` of row `b`, the largest masked product over the 192 positions of
    document `dd`, times the position's weight. -/
theorem chunkOf_apply (v4 : IVec S256x1x1 32) (v7 : FVec Ideal S8x32x1 .f32) (v11 : IVec S32x192 32)
    (p : FVec Ideal S256x32x192 .f32) (b : Fin 8) (dd : Fin 32) :
    chunkOf v4 v7 v11 p (ix2 b dd)
      = ∑ i : Fin 32, (Finset.univ : Finset (Fin 192)).fold max (Ideal.ofBits .f32 0xFF800000#32)
          (fun j => Scalar.select (msk v4 v11 (ix3 (rowOf b i) dd j)) (p (ix3 (rowOf b i) dd j)) (Ideal.ofBits .f32 0x00000000#32))
          * v7 (ix3 b i (0 : Fin 1)) := by
  unfold chunkOf
  rw [shapeCast_self]
  refine (redAdd_apply _ b dd).trans ?_
  refine Finset.sum_congr rfl fun i _ => ?_
  refine (mulf_apply _ _ (ix3 b i dd)).trans (congrArg₂ (· * ·) ?_ ?_)
  · refine (shapeCast_apply _ _ (ix3 b i dd) (ix2 (rowOf b i) dd) ?_).trans ?_
    · rw [Shape.rowMajor_val_two, Shape.rowMajor_val_three]
      rfl
    · exact redMax_apply _ (rowOf b i) dd
  · exact broadcastTo_apply _ _ (ix3 b i dd) (ix3 b i (0 : Fin 1)) (fun a => by
      match a with | ⟨0, _⟩ => rfl | ⟨1, _⟩ => rfl | ⟨2, _⟩ => rfl)

/-- A chunk's value at `(b, dd)` is the weighted token part of row `b` against the chunk's document `dd`. -/
theorem chunk_tokSum (v0 : Vec Ideal S8x32x32 .bf16) (v3 : Vec Ideal S8x32 .i32) (v5 : Vec Ideal S8x32 .f32)
    (vD : Vec Ideal S32x192x32 .bf16) (vid : Vec Ideal S32x192 .i32) (b : Fin 8) (dd : Fin 32) :
    chunkOf (k0_pay4 (F := Ideal) v3) (k0_pay5 (F := Ideal) v5) vid
        (mm3 (k0_pay3 (F := Ideal) v0) (k0_pay10 (F := Ideal) vD)) (ix2 b dd)
      = Cert.Spec.tokSum (nq := 8) (nd := 32) v0 vD v3 vid v5 b dd := by
  rw [chunkOf_apply]
  unfold Cert.Spec.tokSum Cert.Spec.tok Cert.Spec.msim Cert.Spec.sim
  refine Finset.sum_congr rfl fun i _ => ?_
  rw [pay5_apply]
  refine congrArg (· * v5 (ix2 b i)) ?_
  refine Finset.fold_congr fun j _ => ?_
  rw [msk_apply, pay4_apply, mm3_apply, mm_apply]
  refine congrArg (fun x => Scalar.select _ x _) ?_
  exact Finset.sum_congr rfl fun e _ => by rw [pay3_apply, pay10_apply]

/-- Chunk 0's stored value (the first 32 documents). -/
theorem pay6_apply (v0 : Vec Ideal S8x32x32 .bf16) (v3 : Vec Ideal S8x32 .i32) (v5 : Vec Ideal S8x32 .f32)
    (v8 : Vec Ideal S32x192x32 .bf16) (v11 : Vec Ideal S32x192 .i32) (b : Fin 8) (dd : Fin 32) :
    k0_pay6 (F := Ideal) v0 v3 v5 v8 v11 (ix2 b dd) = Cert.Spec.tokSum (nq := 8) (nd := 32) v0 v8 v3 v11 v5 b dd :=
  (congrFun (pay6_eq v0 v3 v5 v8 v11) (ix2 b dd)).trans (chunk_tokSum v0 v3 v5 v8 v11 b dd)

/-- Chunk 1's. -/
theorem pay8_apply (v0 : Vec Ideal S8x32x32 .bf16) (v3 : Vec Ideal S8x32 .i32) (v5 : Vec Ideal S8x32 .f32)
    (v28 : Vec Ideal S32x192x32 .bf16) (v31 : Vec Ideal S32x192 .i32) (b : Fin 8) (dd : Fin 32) :
    k0_pay8 (F := Ideal) (k0_pay4 (F := Ideal) v3) (k0_pay5 (F := Ideal) v5) v31 (k0_pay7 (F := Ideal) v0 v28) (ix2 b dd)
      = Cert.Spec.tokSum (nq := 8) (nd := 32) v0 v28 v3 v31 v5 b dd := by
  rw [pay7_eq]
  exact (congrFun (pay8_eq _ _ v31 _) (ix2 b dd)).trans (chunk_tokSum v0 v3 v5 v28 v31 b dd)

/-- Chunk 2's. -/
theorem pay9_apply (v0 : Vec Ideal S8x32x32 .bf16) (v3 : Vec Ideal S8x32 .i32) (v5 : Vec Ideal S8x32 .f32)
    (v48 : Vec Ideal S32x192x32 .bf16) (v51 : Vec Ideal S32x192 .i32) (b : Fin 8) (dd : Fin 32) :
    k0_pay9 (F := Ideal) (k0_pay3 (F := Ideal) v0) (k0_pay4 (F := Ideal) v3) (k0_pay5 (F := Ideal) v5) v48 v51 (ix2 b dd)
      = Cert.Spec.tokSum (nq := 8) (nd := 32) v0 v48 v3 v51 v5 b dd :=
  (congrFun (pay9_eq _ _ _ v48 v51) (ix2 b dd)).trans (chunk_tokSum v0 v3 v5 v48 v51 b dd)

/-- Chunk 3's. -/
theorem pay1_apply (v0 : Vec Ideal S8x32x32 .bf16) (v3 : Vec Ideal S8x32 .i32) (v5 : Vec Ideal S8x32 .f32)
    (v68 : Vec Ideal S32x192x32 .bf16) (v71 : Vec Ideal S32x192 .i32) (b : Fin 8) (dd : Fin 32) :
    k0_pay1 (F := Ideal) (k0_pay3 (F := Ideal) v0) (k0_pay4 (F := Ideal) v3) (k0_pay5 (F := Ideal) v5) (k0_pay10 (F := Ideal) v68) v71 (ix2 b dd)
      = Cert.Spec.tokSum (nq := 8) (nd := 32) v0 v68 v3 v71 v5 b dd :=
  (congrFun (pay1_eq _ _ _ _ v71) (ix2 b dd)).trans (chunk_tokSum v0 v3 v5 v68 v71 b dd)

/-! ### The class product at an index -/

theorem lhs_cls_0 (i : S8x128.Idx) (q : dot_S8x768_S128x768_S8x128_1_1_0_0_n_n.contr.Idx) :
    (dot_S8x768_S128x768_S8x128_1_1_0_0_n_n.lhsIdx i q 0).val = (i 0).val := by
  unfold DotDims.lhsIdx
  rw [dif_neg (show ¬(0 : Fin S8x768.rank) ∈ dot_S8x768_S128x768_S8x128_1_1_0_0_n_n.lhsBatch by decide), dif_pos (show (0 : Fin S8x768.rank) ∈ dot_S8x768_S128x768_S8x128_1_1_0_0_n_n.lhsNonContracting by decide)]
  rfl
theorem lhs_cls_1 (i : S8x128.Idx) (q : dot_S8x768_S128x768_S8x128_1_1_0_0_n_n.contr.Idx) :
    (dot_S8x768_S128x768_S8x128_1_1_0_0_n_n.lhsIdx i q 1).val = (q ⟨0, by decide⟩).val :=
  dot_S8x768_S128x768_S8x128_1_1_0_0_n_n.lhsIdx_val_of_single rfl i q
theorem rhs_cls_0 (i : S8x128.Idx) (q : dot_S8x768_S128x768_S8x128_1_1_0_0_n_n.contr.Idx) :
    (dot_S8x768_S128x768_S8x128_1_1_0_0_n_n.rhsIdx i q 0).val = (i 1).val := by
  unfold DotDims.rhsIdx
  rw [dif_neg (show ¬(0 : Fin S128x768.rank) ∈ dot_S8x768_S128x768_S8x128_1_1_0_0_n_n.rhsBatch by decide), dif_pos (show (0 : Fin S128x768.rank) ∈ dot_S8x768_S128x768_S8x128_1_1_0_0_n_n.rhsNonContracting by decide)]
  rfl
theorem rhs_cls_1 (i : S8x128.Idx) (q : dot_S8x768_S128x768_S8x128_1_1_0_0_n_n.contr.Idx) :
    (dot_S8x768_S128x768_S8x128_1_1_0_0_n_n.rhsIdx i q 1).val = (q ⟨0, by decide⟩).val :=
  dot_S8x768_S128x768_S8x128_1_1_0_0_n_n.rhsIdx_val_of_single rfl i q

/-- Row `b` of the one class array against row `d` of the other: the sum over the 768 features of the products. -/
theorem clsmm_apply (x : FVec Ideal S8x768 .bf16) (y : FVec Ideal S128x768 .bf16) (b : Fin 8) (d : Fin 128) :
    matmul dot_S8x768_S128x768_S8x128_1_1_0_0_n_n none x y (constant S8x128 .f32 0x00000000#32) (ix2 b d)
      = ∑ e : Fin 768, x (ix2 b e) * y (ix2 d e) := by
  simp only [matmul]
  rw [Ideal.matmul_constant_zero_apply, ← Equiv.sum_comp (contrEquiv1 dot_S8x768_S128x768_S8x128_1_1_0_0_n_n 768 rfl rfl).symm]
  refine Finset.sum_congr rfl fun k _ => ?_
  have hk := contrEquiv1_symm_val dot_S8x768_S128x768_S8x128_1_1_0_0_n_n 768 rfl rfl k
  have el : dot_S8x768_S128x768_S8x128_1_1_0_0_n_n.lhsIdx (ix2 b d) ((contrEquiv1 dot_S8x768_S128x768_S8x128_1_1_0_0_n_n 768 rfl rfl).symm k) = ix2 b k := funext fun a => Fin.ext (by
    match a with
    | ⟨0, _⟩ => exact lhs_cls_0 _ _
    | ⟨1, _⟩ => exact (lhs_cls_1 _ _).trans hk)
  have er : dot_S8x768_S128x768_S8x128_1_1_0_0_n_n.rhsIdx (ix2 b d) ((contrEquiv1 dot_S8x768_S128x768_S8x128_1_1_0_0_n_n 768 rfl rfl).symm k) = ix2 d k := funext fun a => Fin.ext (by
    match a with
    | ⟨0, _⟩ => exact rhs_cls_0 _ _
    | ⟨1, _⟩ => exact (rhs_cls_1 _ _).trans hk)
  rw [el, er]

/-- The last store: what the accumulator holds plus the class dot product. -/
theorem pay2_apply (v88 : Vec Ideal S8x768 .bf16) (v90 : Vec Ideal S128x768 .bf16) (v93 : Vec Ideal S8x128 .f32)
    (b : Fin 8) (d : Fin 128) :
    k0_pay2 (F := Ideal) v88 v90 v93 (ix2 b d) = v93 (ix2 b d) + Cert.Spec.cls (nq := 8) (nd := 128) v88 v90 b d := by
  unfold k0_pay2 Cert.Spec.cls
  rw [shapeCast_self, shapeCast_self]
  exact (addf_apply _ _ (ix2 b d)).trans (congrArg (v93 (ix2 b d) + ·) (clsmm_apply v88 v90 b d))

end Cert.KernelIdeal.Pay

end
-- ==== Proof.KernelBlock.lean ====
/-
  What the kernel body leaves in the output block, read at an index.

  The body writes the scratch accumulator in four column pieces of 32 (one per chunk of documents), reads it back whole,
  adds the class dot product and stores the sum as the whole output block. At `(b, d)` the accumulator read back is
  chunk `d / 32`'s value at `(b, d % 32)`, which is the weighted token sum of row `b` against document `d`; so the
  output block holds `Spec.score` of the block's rows against the documents.
-/
import proofs.«106891_j15118284882567_1_alg».proof.Proof.Gen.KernelIdeal.Frame
import proofs.«106891_j15118284882567_1_alg».proof.Proof.KernelPay
import proofs.«106891_j15118284882567_1_alg».proof.Proof.Spec
import Idealize.ShloMosaic.Lib.Pipeline.Value
import Idealize.ShloMosaic.Lib.ValueIdx

set_option maxRecDepth 16384

noncomputable section

namespace Cert.KernelIdeal.Block

open Idealize.ShloMosaic Idealize.ShloMosaic.TcCoe Idealize.ShloMosaic.ValueIdx Idealize.SL.Sem Cert.KernelIdeal Cert.KernelIdeal.Gen
open Idealize.ShloMosaic.Tactic

/-- The zero offsets of a rank-2 rectangle. -/
private theorem hz2 : (![0, 0] : Fin 2 → Nat) = fun _ => 0 := by
  funext a; match a with | ⟨0, _⟩ => rfl | ⟨1, _⟩ => rfl

/-- The zero offsets of a rank-3 rectangle. -/
private theorem hz3 : (![0, 0, 0] : Fin 3 → Nat) = fun _ => 0 := by
  funext a; match a with | ⟨0, _⟩ => rfl | ⟨1, _⟩ => rfl | ⟨2, _⟩ => rfl

/-- A column piece of 32 at column offset `o` places its index `(bb, dd)` at `(bb, o + dd)` of the accumulator. -/
private theorem emb_col (o : Nat) (ho : o + 32 ≤ 128)
    (inb : ∀ a, (![0, o] : Fin 2 → Nat) a + S8x32.size a ≤ S8x128.size a) (bb : Fin 8) (dd : Fin 32) :
    (Rect.unit (s := S8x128) ![0, o] S8x32.size inb).emb (ix2 bb dd)
      = ix2 bb (⟨o + dd.val, by omega⟩ : Fin 128) := by
  funext a
  match a with
  | ⟨0, _⟩ => exact Fin.ext (by show 0 + 1 * bb.val = bb.val; omega)
  | ⟨1, _⟩ => exact Fin.ext (by show o + 1 * dd.val = o + dd.val; omega)

/-- Rows `o … o + 31` of the staged document tokens, read at `(dd, j, e)`: the whole array's row `o + dd`. -/
private theorem ld_rows3 (o : Nat) (ho : o + 32 ≤ 128)
    (inb : ∀ a, (![o, 0, 0] : Fin 3 → Nat) a + S32x192x32.size a ≤ S128x192x32.size a)
    (x4 : Vec Ideal S128x192x32 .bf16) (dd : Fin 32) (j : Fin 192) (e : Fin 32) :
    View.ld x4 (Rect.unit (s := S128x192x32) ![o, 0, 0] S32x192x32.size inb) (ix3 dd j e)
      = x4 (ix3 (⟨o + dd.val, by omega⟩ : Fin 128) j e) := by
  refine congrArg x4 (funext fun a => ?_)
  match a with
  | ⟨0, _⟩ => exact Fin.ext (by show o + 1 * dd.val = o + dd.val; omega)
  | ⟨1, _⟩ => exact Fin.ext (by show 0 + 1 * j.val = j.val; omega)
  | ⟨2, _⟩ => exact Fin.ext (by show 0 + 1 * e.val = e.val; omega)

/-- Rows `o … o + 31` of the staged document token ids, read at `(dd, j)`: the whole array's row `o + dd`. -/
private theorem ld_rows2 (o : Nat) (ho : o + 32 ≤ 128)
    (inb : ∀ a, (![o, 0] : Fin 2 → Nat) a + S32x192.size a ≤ S128x192.size a)
    (x5 : Vec Ideal S128x192 .i32) (dd : Fin 32) (j : Fin 192) :
    View.ld x5 (Rect.unit (s := S128x192) ![o, 0] S32x192.size inb) (ix2 dd j)
      = x5 (ix2 (⟨o + dd.val, by omega⟩ : Fin 128) j) := by
  refine congrArg x5 (funext fun a => ?_)
  match a with
  | ⟨0, _⟩ => exact Fin.ext (by show o + 1 * dd.val = o + dd.val; omega)
  | ⟨1, _⟩ => exact Fin.ext (by show 0 + 1 * j.val = j.val; omega)

/-- The weighted token sum against a chunk's rows is the sum against the whole array's corresponding row. -/
private theorem tokSum_rows (o : Nat) (ho : o + 32 ≤ 128)
    (inb3 : ∀ a, (![o, 0, 0] : Fin 3 → Nat) a + S32x192x32.size a ≤ S128x192x32.size a)
    (inb2 : ∀ a, (![o, 0] : Fin 2 → Nat) a + S32x192.size a ≤ S128x192.size a)
    (x0 : Vec Ideal S8x32x32 .bf16) (x1 : Vec Ideal S8x32 .i32) (x2 : Vec Ideal S8x32 .f32)
    (x4 : Vec Ideal S128x192x32 .bf16) (x5 : Vec Ideal S128x192 .i32) (bb : Fin 8) (dd : Fin 32) :
    Cert.Spec.tokSum (nq := 8) (nd := 32) x0 (View.ld x4 (Rect.unit (s := S128x192x32) ![o, 0, 0] S32x192x32.size inb3))
        x1 (View.ld x5 (Rect.unit (s := S128x192) ![o, 0] S32x192.size inb2)) x2 bb dd
      = Cert.Spec.tokSum (nq := 8) (nd := 128) x0 x4 x1 x5 x2 bb (⟨o + dd.val, by omega⟩ : Fin 128) :=
  Cert.Spec.tokSum_congr (nq := 8) (nq' := 8) (nd := 32) (nd' := 128) _ _ _ _ _ _ _ _ _ _ bb bb dd _
    (fun _ _ => rfl) (fun j e => ld_rows3 o ho inb3 x4 dd j e) (fun _ => rfl) (fun j => ld_rows2 o ho inb2 x5 dd j) (fun _ => rfl)

/-- The accumulator's contents as one function of its index: the weighted token sum of row `y 0` against document `y 1`. -/
private def accG (T : Fin 8 → Fin 128 → EReal) : S8x128.Idx → Elt Ideal .f32 := fun y => T (y 0) (y 1)

/-- Four column pieces of 32, each holding the token sums of its 32 documents, read back as ONE function: the
    accumulator at `(b, d)` is the token sum of row `b` against document `d`. -/
private theorem acc_apply (T : Fin 8 → Fin 128 → EReal) (P0 P1 P2 P3 : Vec Ideal S8x32 .f32)
    (h0 : ∀ (bb : Fin 8) (dd : Fin 32), P0 (ix2 bb dd) = T bb (⟨0 + dd.val, by omega⟩ : Fin 128))
    (h1 : ∀ (bb : Fin 8) (dd : Fin 32), P1 (ix2 bb dd) = T bb (⟨32 + dd.val, by omega⟩ : Fin 128))
    (h2 : ∀ (bb : Fin 8) (dd : Fin 32), P2 (ix2 bb dd) = T bb (⟨64 + dd.val, by omega⟩ : Fin 128))
    (h3 : ∀ (bb : Fin 8) (dd : Fin 32), P3 (ix2 bb dd) = T bb (⟨96 + dd.val, by omega⟩ : Fin 128))
    (b : Fin 8) (d : Fin 128) :
    View.canon (Val := Elt Ideal)
      [(⟨Rect.unit (s := S8x128) ![0, 96] S8x32.size inb_S8x128_S8x32_0_96, P3⟩ : View.Piece (Elt Ideal) S8x128 .f32),
       ⟨Rect.unit (s := S8x128) ![0, 64] S8x32.size inb_S8x128_S8x32_0_64, P2⟩,
       ⟨Rect.unit (s := S8x128) ![0, 32] S8x32.size inb_S8x128_S8x32_0_32, P1⟩,
       ⟨Rect.unit (s := S8x128) ![0, 0] S8x32.size inb_S8x128_S8x32_0_0, P0⟩] (ix2 b d)
      = T b d := by
  refine View.canon_apply_of_pieces (Val := Elt Ideal) (accG T) _ ?hp (ix2 b d) ?hc
  case hp =>
    intro p hp
    simp only [List.mem_cons, List.not_mem_nil, or_false] at hp
    rcases hp with rfl | rfl | rfl | rfl
    · intro (x : (⟨2, ![8, 32]⟩ : Shape).Idx)
      obtain ⟨bb, dd, rfl⟩ : ∃ (bb : Fin 8) (dd : Fin 32), x = ix2 bb dd := ⟨x 0, x 1, eq_ix2 x⟩
      exact (h3 bb dd).trans (congrArg (accG T) (emb_col 96 (by omega) inb_S8x128_S8x32_0_96 bb dd)).symm
    · intro (x : (⟨2, ![8, 32]⟩ : Shape).Idx)
      obtain ⟨bb, dd, rfl⟩ : ∃ (bb : Fin 8) (dd : Fin 32), x = ix2 bb dd := ⟨x 0, x 1, eq_ix2 x⟩
      exact (h2 bb dd).trans (congrArg (accG T) (emb_col 64 (by omega) inb_S8x128_S8x32_0_64 bb dd)).symm
    · intro (x : (⟨2, ![8, 32]⟩ : Shape).Idx)
      obtain ⟨bb, dd, rfl⟩ : ∃ (bb : Fin 8) (dd : Fin 32), x = ix2 bb dd := ⟨x 0, x 1, eq_ix2 x⟩
      exact (h1 bb dd).trans (congrArg (accG T) (emb_col 32 (by omega) inb_S8x128_S8x32_0_32 bb dd)).symm
    · intro (x : (⟨2, ![8, 32]⟩ : Shape).Idx)
      obtain ⟨bb, dd, rfl⟩ : ∃ (bb : Fin 8) (dd : Fin 32), x = ix2 bb dd := ⟨x 0, x 1, eq_ix2 x⟩
      exact (h0 bb dd).trans (congrArg (accG T) (emb_col 0 (by omega) inb_S8x128_S8x32_0_0 bb dd)).symm
  case hc =>
    have hb := b.isLt
    have hd := d.isLt
    by_cases c1 : d.val < 32
    · refine ⟨⟨Rect.unit (s := S8x128) ![0, 0] S8x32.size inb_S8x128_S8x32_0_0, P0⟩,
        List.mem_cons_of_mem _ (List.mem_cons_of_mem _ (List.mem_cons_of_mem _ List.mem_cons_self)), ?_⟩
      exact (Rect.mem_set_unit (inb := inb_S8x128_S8x32_0_0)).mpr fun a => match a with
        | ⟨0, _⟩ => ⟨by show 0 ≤ b.val; omega, by show b.val < 0 + 8; omega⟩
        | ⟨1, _⟩ => ⟨by show 0 ≤ d.val; omega, by show d.val < 0 + 32; omega⟩
    by_cases c2 : d.val < 64
    · refine ⟨⟨Rect.unit (s := S8x128) ![0, 32] S8x32.size inb_S8x128_S8x32_0_32, P1⟩,
        List.mem_cons_of_mem _ (List.mem_cons_of_mem _ List.mem_cons_self), ?_⟩
      exact (Rect.mem_set_unit (inb := inb_S8x128_S8x32_0_32)).mpr fun a => match a with
        | ⟨0, _⟩ => ⟨by show 0 ≤ b.val; omega, by show b.val < 0 + 8; omega⟩
        | ⟨1, _⟩ => ⟨by show 32 ≤ d.val; omega, by show d.val < 32 + 32; omega⟩
    by_cases c3 : d.val < 96
    · refine ⟨⟨Rect.unit (s := S8x128) ![0, 64] S8x32.size inb_S8x128_S8x32_0_64, P2⟩,
        List.mem_cons_of_mem _ List.mem_cons_self, ?_⟩
      exact (Rect.mem_set_unit (inb := inb_S8x128_S8x32_0_64)).mpr fun a => match a with
        | ⟨0, _⟩ => ⟨by show 0 ≤ b.val; omega, by show b.val < 0 + 8; omega⟩
        | ⟨1, _⟩ => ⟨by show 64 ≤ d.val; omega, by show d.val < 64 + 32; omega⟩
    · refine ⟨⟨Rect.unit (s := S8x128) ![0, 96] S8x32.size inb_S8x128_S8x32_0_96, P3⟩, List.mem_cons_self, ?_⟩
      exact (Rect.mem_set_unit (inb := inb_S8x128_S8x32_0_96)).mpr fun a => match a with
        | ⟨0, _⟩ => ⟨by show 0 ≤ b.val; omega, by show b.val < 0 + 8; omega⟩
        | ⟨1, _⟩ => ⟨by show 96 ≤ d.val; omega, by show d.val < 96 + 32; omega⟩

/-- The output block at `(b, d)`, for any staging memrefs and any input blocks: the score of the block's row `b`
    against document `d`. -/
theorem out_apply (c : Dev nD) (i : grid0.Coords) (arg1 : Memref sig .tc .vmem S8x32x32 .bf16) (harg1 : arg1.IsWhole) (arg2 : Memref sig .tc .vmem S8x32 .i32) (harg2 : arg2.IsWhole) (arg3 : Memref sig .tc .vmem S8x32 .f32) (harg3 : arg3.IsWhole) (arg4 : Memref sig .tc .vmem S8x768 .bf16) (harg4 : arg4.IsWhole) (arg5 : Memref sig .tc .vmem S128x192x32 .bf16) (harg5 : arg5.IsWhole) (arg6 : Memref sig .tc .vmem S128x192 .i32) (harg6 : arg6.IsWhole) (arg7 : Memref sig .tc .vmem S128x768 .bf16) (harg7 : arg7.IsWhole) (arg8 : Memref sig .tc .vmem S8x128 .f32) (harg8 : arg8.IsWhole) (arg9 : Memref sig .tc .vmem S8x128 .f32) (harg9 : arg9.IsWhole)
    (x0 : Vec Ideal S8x32x32 .bf16) (x1 : Vec Ideal S8x32 .i32) (x2 : Vec Ideal S8x32 .f32) (x3 : Vec Ideal S8x768 .bf16)
    (x4 : Vec Ideal S128x192x32 .bf16) (x5 : Vec Ideal S128x192 .i32) (x6 : Vec Ideal S128x768 .bf16)
    (b : Fin 8) (d : Fin 128) :
    out0_A_7 (F := Ideal) c i arg1 harg1 arg2 harg2 arg3 harg3 arg4 harg4 arg5 harg5 arg6 harg6 arg7 harg7 arg8 harg8 arg9 harg9 x0 x1 x2 x3 x4 x5 x6 (ix2 b d)
      = Cert.Spec.score (nq := 8) (nd := 128) x0 x4 x3 x6 x1 x5 x2 b d := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  -- the output's one piece is the whole block: what is left is the last store's value at `(b, d)`
  rw [View.canon_unit_zero hz2]
  -- the whole-block loads of the inputs read the blocks themselves
  simp only [View.readAt_eq_ld, harg1.read_unread, harg2.read_unread, harg3.read_unread, harg4.read_unread,
    harg5.read_unread, harg6.read_unread, harg7.read_unread,
    View.ld_unit_zero (S := S8x32x32) hz3, View.ld_unit_zero (S := S8x32) hz2,
    View.ld_unit_zero (S := S8x768) hz2, View.ld_unit_zero (S := S128x768) hz2]
  -- the last store: the accumulator read back, plus the class dot product
  refine (Pay.pay2_apply _ _ _ b d).trans ?_
  unfold Cert.Spec.score
  refine congrArg (· + Cert.Spec.cls (nq := 8) (nd := 128) x3 x6 b d) ?_
  refine (congrFun ((View.readCov_eq_canon' _ _ _).trans (View.ld_unit_zero (S := S8x128) hz2 _ _)) (ix2 b d)).trans ?_
  exact acc_apply (Cert.Spec.tokSum (nq := 8) (nd := 128) x0 x4 x1 x5 x2) _ _ _ _
    (fun bb dd => (Pay.pay6_apply x0 x1 x2 _ _ bb dd).trans
      (tokSum_rows 0 (by omega) inb_S128x192x32_S32x192x32_0_0_0 inb_S128x192_S32x192_0_0 x0 x1 x2 x4 x5 bb dd))
    (fun bb dd => (Pay.pay8_apply x0 x1 x2 _ _ bb dd).trans
      (tokSum_rows 32 (by omega) inb_S128x192x32_S32x192x32_32_0_0 inb_S128x192_S32x192_32_0 x0 x1 x2 x4 x5 bb dd))
    (fun bb dd => (Pay.pay9_apply x0 x1 x2 _ _ bb dd).trans
      (tokSum_rows 64 (by omega) inb_S128x192x32_S32x192x32_64_0_0 inb_S128x192_S32x192_64_0 x0 x1 x2 x4 x5 bb dd))
    (fun bb dd => (Pay.pay1_apply x0 x1 x2 _ _ bb dd).trans
      (tokSum_rows 96 (by omega) inb_S128x192x32_S32x192x32_96_0_0 inb_S128x192_S32x192_96_0 x0 x1 x2 x4 x5 bb dd))
    b d

end Cert.KernelIdeal.Block

end
-- ==== Proof.KernelArrays.lean ====
/-
  The arrays the kernel region finds, as functions of @main's arguments. Before the region @main converts the four
  float arguments to bf16; on the extended reals a change of float format is the identity, so the region finds the
  arguments themselves.
-/
import proofs.«106891_j15118284882567_1_alg».proof.Proof.Gen.KernelIdeal.Frame
import Idealize.ShloMosaic.Lib.StableHlo.Run
import Idealize.ShloMosaic.Lib.ValueIdx

noncomputable section

namespace Cert.KernelIdeal.Arrays

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The query token embeddings, converted: the argument. Of the operations before the region only the conversion of
    argument 0 writes this array, and at every index the converted value is the value itself. -/
theorem V_v23 : (V m c main_v23 : S64x32x32.Idx → EReal) = m ((c : Thread nD τ).loc main_arg0) := by
  dsimp only [Gen.V, Gen.hostOps0]; after_results
  exact funext fun i => truncf_apply _ _ i
/-- The document token embeddings. -/
theorem V_v24 : (V m c main_v24 : S128x192x32.Idx → EReal) = m ((c : Thread nD τ).loc main_arg1) := by
  dsimp only [Gen.V, Gen.hostOps0]; after_results
  exact funext fun i => truncf_apply _ _ i
/-- The query class embeddings. -/
theorem V_v25 : (V m c main_v25 : S64x768.Idx → EReal) = m ((c : Thread nD τ).loc main_arg2) := by
  dsimp only [Gen.V, Gen.hostOps0]; after_results
  exact funext fun i => truncf_apply _ _ i
/-- The document class embeddings. -/
theorem V_v26 : (V m c main_v26 : S128x768.Idx → EReal) = m ((c : Thread nD τ).loc main_arg3) := by
  dsimp only [Gen.V, Gen.hostOps0]; after_results
  exact funext fun i => truncf_apply _ _ i

end Cert.KernelIdeal.Arrays

end
-- ==== Proof.KernelValue.lean ====
/-
  The kernel's result array after the run, as one function of @main's arguments.

  The grid has eight points; point `t` stages rows `8t … 8t+7` of the query-side arrays and the whole document-side
  arrays, and writes rows `8t … 8t+7` of the result. The block it writes is the score of its rows against the
  documents (`Block.out_apply`); the eight blocks tile the result, so the result at `(q, d)` is `Spec.score` of the
  whole arrays at `(q, d)`, the weights being the array @main prepared before the region.
-/
import proofs.«106891_j15118284882567_1_alg».proof.Proof.Gen.KernelIdeal.Value
import proofs.«106891_j15118284882567_1_alg».proof.Proof.KernelBlock
import proofs.«106891_j15118284882567_1_alg».proof.Proof.KernelArrays
import proofs.«106891_j15118284882567_1_alg».proof.Proof.Spec
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The weights the region finds: the array @main prepared (the converted mask with the separator position and
    position 0 set to zero). -/
abbrev weights (c : Dev nD) : (⟨2, ![64, 32]⟩ : Shape).Idx → EReal := V m c main_v22

/-- The result as a function of the arguments and the prepared weights. -/
def G (c : Dev nD) : S64x128.Idx → EReal := fun o =>
  Cert.Spec.score (nq := 64) (nd := 128) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (weights m c) (o 0) (o 1)

/-! ## The input blocks and the arrays, by their literal types -/

/-- Point `t`'s block of the query token embeddings: eight query rows. -/
abbrev xblk0 (c : Dev nD) (t : Fin cfg0.N) : (⟨3, ![8, 32, 32]⟩ : Shape).Idx → EReal := iblk m c 0 t
/-- Point `t`'s block of the query token ids. -/
abbrev xblk1 (c : Dev nD) (t : Fin cfg0.N) : (⟨2, ![8, 32]⟩ : Shape).Idx → BitVec 32 := iblk m c 1 t
/-- Point `t`'s block of the weights. -/
abbrev xblk2 (c : Dev nD) (t : Fin cfg0.N) : (⟨2, ![8, 32]⟩ : Shape).Idx → EReal := iblk m c 2 t
/-- Point `t`'s block of the query class embeddings. -/
abbrev xblk3 (c : Dev nD) (t : Fin cfg0.N) : (⟨2, ![8, 768]⟩ : Shape).Idx → EReal := iblk m c 3 t
/-- The document token embeddings as point `t` stages them: the whole array. -/
abbrev xblk4 (c : Dev nD) (t : Fin cfg0.N) : (⟨3, ![128, 192, 32]⟩ : Shape).Idx → EReal := iblk m c 4 t
/-- The document token ids as point `t` stages them: the whole array. -/
abbrev xblk5 (c : Dev nD) (t : Fin cfg0.N) : (⟨2, ![128, 192]⟩ : Shape).Idx → BitVec 32 := iblk m c 5 t
/-- The document class embeddings as point `t` stages them: the whole array. -/
abbrev xblk6 (c : Dev nD) (t : Fin cfg0.N) : (⟨2, ![128, 768]⟩ : Shape).Idx → EReal := iblk m c 6 t

/-! ## The index maps, decided over the eight points -/

/-- The query-side windows and the result's window take block `t` on the row axis and block `0` on the others; the
    document-side windows take block `0` on every axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block read where its rows are in the array -/

/-- Row `b` of point `t`'s block of the query token embeddings is row `8t + b` of argument 0. -/
theorem xblk0_apply (c : Dev nD) (t : Fin cfg0.N) (b : Fin 8) (i e : Fin 32) (q : Fin 64) (hq : q.val = t.val * 8 + b.val) :
    xblk0 m c t (ix3 b i e) = (m ((c : Thread nD τ).loc main_arg0) : S64x32x32.Idx → EReal) (ix3 q i e) := by
  obtain ⟨e0, e1, e2, -⟩ := idx_facts t
  have hemb : (((cfg0.win 0).blk t).view.emb (ix3 b i e) : S64x32x32.Idx) = ix3 q i e := by
    funext a; apply Fin.ext
    match a with
    | ⟨0, _⟩ => show win0_0.index t (0 : Fin 3) * 8 + 1 * b.val = q.val; omega
    | ⟨1, _⟩ => show win0_0.index t (1 : Fin 3) * 32 + 1 * i.val = i.val; omega
    | ⟨2, _⟩ => show win0_0.index t (2 : Fin 3) * 32 + 1 * e.val = e.val; omega
  show (V m c main_v23 : S64x32x32.Idx → EReal) (((cfg0.win 0).blk t).view.emb (ix3 b i e)) = _
  rw [hemb, Arrays.V_v23]

/-- Row `b` of point `t`'s block of the query token ids is row `8t + b` of argument 4. -/
theorem xblk1_apply (c : Dev nD) (t : Fin cfg0.N) (b : Fin 8) (i : Fin 32) (q : Fin 64) (hq : q.val = t.val * 8 + b.val) :
    xblk1 m c t (ix2 b i) = (m ((c : Thread nD τ).loc main_arg4) : S64x32.Idx → BitVec 32) (ix2 q i) := by
  obtain ⟨-, -, -, e0, e1, -⟩ := idx_facts t
  have hemb : (((cfg0.win 1).blk t).view.emb (ix2 b i) : S64x32.Idx) = ix2 q i := by
    funext a; apply Fin.ext
    match a with
    | ⟨0, _⟩ => show win0_1.index t (0 : Fin 2) * 8 + 1 * b.val = q.val; omega
    | ⟨1, _⟩ => show win0_1.index t (1 : Fin 2) * 32 + 1 * i.val = i.val; omega
  show (V m c main_arg4 : S64x32.Idx → BitVec 32) (((cfg0.win 1).blk t).view.emb (ix2 b i)) = _
  rw [hemb, Gen.V_main_arg4]

/-- Row `b` of point `t`'s block of the weights is row `8t + b` of the prepared weights. -/
theorem xblk2_apply (c : Dev nD) (t : Fin cfg0.N) (b : Fin 8) (i : Fin 32) (q : Fin 64) (hq : q.val = t.val * 8 + b.val) :
    xblk2 m c t (ix2 b i) = weights m c (ix2 q i) := by
  obtain ⟨-, -, -, -, -, e0, e1, -⟩ := idx_facts t
  have hemb : (((cfg0.win 2).blk t).view.emb (ix2 b i) : S64x32.Idx) = ix2 q i := by
    funext a; apply Fin.ext
    match a with
    | ⟨0, _⟩ => show win0_2.index t (0 : Fin 2) * 8 + 1 * b.val = q.val; omega
    | ⟨1, _⟩ => show win0_2.index t (1 : Fin 2) * 32 + 1 * i.val = i.val; omega
  show (V m c main_v22 : S64x32.Idx → EReal) (((cfg0.win 2).blk t).view.emb (ix2 b i)) = _
  rw [hemb]

/-- Row `b` of point `t`'s block of the query class embeddings is row `8t + b` of argument 2. -/
theorem xblk3_apply (c : Dev nD) (t : Fin cfg0.N) (b : Fin 8) (e : Fin 768) (q : Fin 64) (hq : q.val = t.val * 8 + b.val) :
    xblk3 m c t (ix2 b e) = (m ((c : Thread nD τ).loc main_arg2) : S64x768.Idx → EReal) (ix2 q e) := by
  obtain ⟨-, -, -, -, -, -, -, e0, e1, -⟩ := idx_facts t
  have hemb : (((cfg0.win 3).blk t).view.emb (ix2 b e) : S64x768.Idx) = ix2 q e := by
    funext a; apply Fin.ext
    match a with
    | ⟨0, _⟩ => show win0_3.index t (0 : Fin 2) * 8 + 1 * b.val = q.val; omega
    | ⟨1, _⟩ => show win0_3.index t (1 : Fin 2) * 768 + 1 * e.val = e.val; omega
  show (V m c main_v25 : S64x768.Idx → EReal) (((cfg0.win 3).blk t).view.emb (ix2 b e)) = _
  rw [hemb, Arrays.V_v25]

/-- Every point stages the whole array of document token embeddings: argument 1. -/
theorem xblk4_apply (c : Dev nD) (t : Fin cfg0.N) (d : Fin 128) (j : Fin 192) (e : Fin 32) :
    xblk4 m c t (ix3 d j e) = (m ((c : Thread nD τ).loc main_arg1) : S128x192x32.Idx → EReal) (ix3 d j e) := by
  obtain ⟨-, -, -, -, -, -, -, -, -, e0, e1, e2, -⟩ := idx_facts t
  have hemb : (((cfg0.win 4).blk t).view.emb (ix3 d j e) : S128x192x32.Idx) = ix3 d j e := by
    funext a; apply Fin.ext
    match a with
    | ⟨0, _⟩ => show win0_4.index t (0 : Fin 3) * 128 + 1 * d.val = d.val; omega
    | ⟨1, _⟩ => show win0_4.index t (1 : Fin 3) * 192 + 1 * j.val = j.val; omega
    | ⟨2, _⟩ => show win0_4.index t (2 : Fin 3) * 32 + 1 * e.val = e.val; omega
  show (V m c main_v24 : S128x192x32.Idx → EReal) (((cfg0.win 4).blk t).view.emb (ix3 d j e)) = _
  rw [hemb, Arrays.V_v24]

/-- Every point stages the whole array of document token ids: argument 5. -/
theorem xblk5_apply (c : Dev nD) (t : Fin cfg0.N) (d : Fin 128) (j : Fin 192) :
    xblk5 m c t (ix2 d j) = (m ((c : Thread nD τ).loc main_arg5) : S128x192.Idx → BitVec 32) (ix2 d j) := by
  obtain ⟨-, -, -, -, -, -, -, -, -, -, -, -, e0, e1, -⟩ := idx_facts t
  have hemb : (((cfg0.win 5).blk t).view.emb (ix2 d j) : S128x192.Idx) = ix2 d j := by
    funext a; apply Fin.ext
    match a with
    | ⟨0, _⟩ => show win0_5.index t (0 : Fin 2) * 128 + 1 * d.val = d.val; omega
    | ⟨1, _⟩ => show win0_5.index t (1 : Fin 2) * 192 + 1 * j.val = j.val; omega
  show (V m c main_arg5 : S128x192.Idx → BitVec 32) (((cfg0.win 5).blk t).view.emb (ix2 d j)) = _
  rw [hemb, Gen.V_main_arg5]

/-- Every point stages the whole array of document class embeddings: argument 3. -/
theorem xblk6_apply (c : Dev nD) (t : Fin cfg0.N) (d : Fin 128) (e : Fin 768) :
    xblk6 m c t (ix2 d e) = (m ((c : Thread nD τ).loc main_arg3) : S128x768.Idx → EReal) (ix2 d e) := by
  obtain ⟨-, -, -, -, -, -, -, -, -, -, -, -, -, -, e0, e1, -⟩ := idx_facts t
  have hemb : (((cfg0.win 6).blk t).view.emb (ix2 d e) : S128x768.Idx) = ix2 d e := by
    funext a; apply Fin.ext
    match a with
    | ⟨0, _⟩ => show win0_6.index t (0 : Fin 2) * 128 + 1 * d.val = d.val; omega
    | ⟨1, _⟩ => show win0_6.index t (1 : Fin 2) * 768 + 1 * e.val = e.val; omega
  show (V m c main_v26 : S128x768.Idx → EReal) (((cfg0.win 6).blk t).view.emb (ix2 d e)) = _
  rw [hemb, Arrays.V_v26]

/-! ## What a point writes back, and the whole array -/

/-- What point `t` writes back is block `t` of `G`: at `(b, d)` of the block the body left the score of the block's
    row `b` against document `d`, the score reads its arrays only on those two rows, and the block's row `b` is row
    `8t + b` of each query-side array. -/
theorem flushed_eq (c : Dev nD) (t : Fin cfg0.N) :
    (dats m 0 c).flushed 7 t = ((cfg0.win 7).blk t).view.read (Elt Ideal) (G m c) := by
  rw [Value.flushed7_A]
  refine funext fun (y : S8x128.Idx) => ?_
  obtain ⟨b, d, rfl⟩ : ∃ (b : Fin 8) (d : Fin 128), y = ix2 b d := ⟨y 0, y 1, eq_ix2 y⟩
  obtain ⟨-, -, -, -, -, -, -, -, -, -, -, -, -, -, -, -, e0, e1⟩ := idx_facts t
  have ht : t.val < 8 := by have h : t.val < cfg0.N := t.isLt; have hN : cfg0.N = 8 := N_0; omega
  have hq : t.val * 8 + b.val < 64 := by have hb := b.isLt; omega
  have hemb : (((cfg0.win 7).blk t).view.emb (ix2 b d) : S64x128.Idx) = ix2 (⟨t.val * 8 + b.val, hq⟩ : Fin 64) d := by
    funext a; apply Fin.ext
    match a with
    | ⟨0, _⟩ => show win0_7.index t (0 : Fin 2) * 8 + 1 * b.val = t.val * 8 + b.val; omega
    | ⟨1, _⟩ => show win0_7.index t (1 : Fin 2) * 128 + 1 * d.val = d.val; omega
  show out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (xblk0 m c t) (xblk1 m c t) (xblk2 m c t) (xblk3 m c t) (xblk4 m c t) (xblk5 m c t) (xblk6 m c t) (ix2 b d)
    = G m c (((cfg0.win 7).blk t).view.emb (ix2 b d))
  rw [hemb]
  refine (Block.out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (xblk0 m c t) (xblk1 m c t) (xblk2 m c t) (xblk3 m c t) (xblk4 m c t) (xblk5 m c t) (xblk6 m c t) b d).trans ?_
  unfold G
  exact Cert.Spec.score_congr (xblk0 m c t) (xblk4 m c t) (xblk3 m c t) (xblk6 m c t) (xblk1 m c t) (xblk5 m c t) (xblk2 m c t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (weights m c)
    b ⟨t.val * 8 + b.val, hq⟩ d d
    (fun i e => xblk0_apply m c t b i e _ rfl) (fun j e => xblk4_apply m c t d j e)
    (fun e => xblk3_apply m c t b e _ rfl) (fun e => xblk6_apply m c t d e)
    (fun i => xblk1_apply m c t b i _ rfl) (fun j => xblk5_apply m c t d j)
    (fun i => xblk2_apply m c t b i _ rfl)

/-- An index of the result is in point `t`'s block iff each coordinate is in the block's range on its axis. -/
theorem mem_blk (t : Fin cfg0.N) (i : S64x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v27).slice (win0_7.rect t)).set ↔ _
  rw [View.set_slice_whole, Rect.mem_set_unit]
  exact Iff.rfl

/-- The eight blocks tile the result: row `q` is in the block of point `q / 8`, which is written back. -/
theorem cover (i : S64x128.Idx) : ∃ t : Fin cfg0.N, (cfg0.win 7).flush t = true ∧ i ∈ ((cfg0.win 7).blk t).view.set := by
  have hi0 : (i 0).val < 64 := (i 0).isLt
  have hi1 : (i 1).val < 128 := (i 1).isLt
  have hN : cfg0.N = 8 := N_0
  have ht : (i 0).val / 8 < cfg0.N := by rw [hN]; omega
  obtain ⟨-, -, -, -, -, -, -, -, -, -, -, -, -, -, -, -, e0, e1⟩ := idx_facts ⟨(i 0).val / 8, ht⟩
  refine ⟨⟨(i 0).val / 8, ht⟩, flush0_7 _, ?_⟩
  rw [mem_blk]
  intro a
  match a with
  | ⟨0, _⟩ =>
    show win0_7.index ⟨(i 0).val / 8, ht⟩ (0 : Fin 2) * 8 ≤ (i 0).val ∧ (i 0).val < win0_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_7.index ⟨(i 0).val / 8, ht⟩ (1 : Fin 2) * 128 ≤ (i 1).val ∧ (i 1).val < win0_7.index ⟨(i 0).val / 8, ht⟩ (1 : Fin 2) * 128 + 128
    rw [e1]; omega

/-- After the run the result array is `G`. -/
theorem final (c : Dev nD) : (dats m 0 c).arrAt 7 cfg0.N = G m c :=
  (dats m 0 c).arrAt_eq_of_cover 7 (G m c) (fun t _ => flushed_eq m c t) cover

/-- The kernel's run: it terminates with the result at `G` and the arguments unchanged. -/
theorem run : θ_run defs (onTc (τ := τ) (main (F := Ideal))) ⟨m, fun _ => 0, ρ⟩ fun r => ∀ c : Dev nD,
      r.2.mem ((c : Thread nD τ).loc main_v27) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Result

end
-- ==== Proof.LibScatter.lean ====
/-
  A `stablehlo.scatter` whose body returns the update (`x.at[idx].set(v)`) and whose updates are all ONE constant `c`,
  read at an index. The scatter is a left fold over the update positions; each step overwrites the element its update
  lands on (`ScatterDims.resultIdx?`) and leaves the others. With a constant update the order of the steps does not
  matter: an element some update lands on ends at `c`, an element none lands on keeps the operand's value. Hence an
  elementwise map `g` commutes with such a scatter (the operand mapped, the constant mapped).
-/
import Idealize.ShloMosaic.PureOps.ShapeOps

namespace Idealize.ShloMosaic.LibScatter

open Idealize.ShloMosaic

variable {α : Type} {s si u : Shape} {w : Nat}

/-- One step of the fold: the update at position `n` overwrites the element it lands on, if it lands inside. -/
private def step (d : ScatterDims s si u) (idx : IVec si w) (c : α) (r : s.Idx → α) (n : Fin u.numel) : s.Idx → α :=
  match d.resultIdx? (u.rowMajor.symm n) idx with
  | some i => fun i' => if i' = i then c else r i'
  | none => r

private theorem step_apply_hit (d : ScatterDims s si u) (idx : IVec si w) (c : α) (r : s.Idx → α) (n : Fin u.numel)
    (i : s.Idx) (h : d.resultIdx? (u.rowMajor.symm n) idx = some i) : step d idx c r n i = c := by
  unfold step; rw [h]; exact if_pos rfl

private theorem step_apply_miss (d : ScatterDims s si u) (idx : IVec si w) (c : α) (r : s.Idx → α) (n : Fin u.numel)
    (i : s.Idx) (h : d.resultIdx? (u.rowMajor.symm n) idx ≠ some i) : step d idx c r n i = r i := by
  unfold step
  cases hr : d.resultIdx? (u.rowMajor.symm n) idx with
  | none => rfl
  | some i0 =>
    have hne : i ≠ i0 := fun e => h (by rw [hr, e])
    exact if_neg hne

/-- The fold over any list of update positions, read at `i`: `c` if a listed update lands on `i`, else what it started from. -/
private theorem foldl_step_apply (d : ScatterDims s si u) (idx : IVec si w) (c : α) (i : s.Idx) :
    ∀ (l : List (Fin u.numel)) (r : s.Idx → α),
      ((∃ n ∈ l, d.resultIdx? (u.rowMajor.symm n) idx = some i) → l.foldl (step d idx c) r i = c)
      ∧ ((∀ n ∈ l, d.resultIdx? (u.rowMajor.symm n) idx ≠ some i) → l.foldl (step d idx c) r i = r i)
  | [], r => ⟨fun ⟨_, hn, _⟩ => absurd hn List.not_mem_nil, fun _ => rfl⟩
  | n :: l, r => by
    have ih := foldl_step_apply d idx c i l (step d idx c r n)
    rw [List.foldl_cons]
    refine ⟨fun hex => ?_, fun hall => ?_⟩
    · by_cases hl : ∃ n' ∈ l, d.resultIdx? (u.rowMajor.symm n') idx = some i
      · exact ih.1 hl
      · have hl' : ∀ n' ∈ l, d.resultIdx? (u.rowMajor.symm n') idx ≠ some i :=
          fun n' hn' e => hl ⟨n', hn', e⟩
        rw [ih.2 hl']
        obtain ⟨n0, hn0, e0⟩ := hex
        rcases List.mem_cons.mp hn0 with rfl | hn0'
        · exact step_apply_hit d idx c r _ i e0
        · exact absurd e0 (hl' n0 hn0')
    · rw [ih.2 fun n' hn' => hall n' (List.mem_cons_of_mem _ hn')]
      exact step_apply_miss d idx c r n i (hall n List.mem_cons_self)

/-- `Host.scatter` with the returning-the-update body and a constant update IS that fold. -/
private theorem scatter_eq_foldl (d : ScatterDims s si u) (x : s.Idx → α) (idx : IVec si w) (c : α) :
    Host.scatter d (fun _ b => b) x idx (fun _ => c) = (List.finRange u.numel).foldl (step d idx c) x := rfl

/-- An element SOME update lands on ends at the constant. -/
theorem scatter_set_const_of_hit (d : ScatterDims s si u) (x : s.Idx → α) (idx : IVec si w) (c : α) (i : s.Idx)
    (h : ∃ n : Fin u.numel, d.resultIdx? (u.rowMajor.symm n) idx = some i) :
    Host.scatter d (fun _ b => b) x idx (fun _ => c) i = c := by
  rw [scatter_eq_foldl]
  obtain ⟨n, hn⟩ := h
  exact (foldl_step_apply d idx c i _ x).1 ⟨n, List.mem_finRange n, hn⟩

/-- An element NO update lands on keeps the operand's value. -/
theorem scatter_set_const_of_miss (d : ScatterDims s si u) (x : s.Idx → α) (idx : IVec si w) (c : α) (i : s.Idx)
    (h : ∀ n : Fin u.numel, d.resultIdx? (u.rowMajor.symm n) idx ≠ some i) :
    Host.scatter d (fun _ b => b) x idx (fun _ => c) i = x i := by
  rw [scatter_eq_foldl]
  exact (foldl_step_apply d idx c i _ x).2 fun n _ => h n

/-- So an elementwise map commutes with it: the operand mapped, the constant mapped, the same indices. -/
theorem scatter_set_const_map {β : Type} (g : α → β) (d : ScatterDims s si u) (x : s.Idx → α) (idx : IVec si w) (c : α)
    (i : s.Idx) :
    g (Host.scatter d (fun _ b => b) x idx (fun _ => c) i)
      = Host.scatter d (fun _ b => b) (fun k => g (x k)) idx (fun _ => g c) i := by
  by_cases h : ∃ n : Fin u.numel, d.resultIdx? (u.rowMajor.symm n) idx = some i
  · rw [scatter_set_const_of_hit d x idx c i h, scatter_set_const_of_hit d _ idx (g c) i h]
  · have h' : ∀ n : Fin u.numel, d.resultIdx? (u.rowMajor.symm n) idx ≠ some i := fun n e => h ⟨n, e⟩
    rw [scatter_set_const_of_miss d x idx c i h', scatter_set_const_of_miss d _ idx (g c) i h']

end Idealize.ShloMosaic.LibScatter
-- ==== Proof.Weights.lean ====
/-
  The weights of the query positions, as the kernel's program and the reference prepare them from the attention mask.

  Both compute the same index pairs `(row, (∑ mask[row]) − 1)`, a negative component wrapped by the axis length. The
  reference sets the mask to `0` there and then converts to float; the kernel's program converts first, sets `0.0`
  there, and then also sets the whole column of position `0` to `0.0`. Converting commutes with setting a constant
  (`LibScatter.scatter_set_const_map`; the integer `0` converts to the float zero), so from position `1` on the two
  arrays agree, and at position `0` the kernel's weight is zero.
-/
import proofs.«106891_j15118284882567_1_alg».proof.Proof.Gen.KernelIdeal.Frame
import proofs.«106891_j15118284882567_1_alg».proof.Proof.RefRead
import proofs.«106891_j15118284882567_1_alg».proof.Proof.LibScatter
import Idealize.ShloMosaic.Lib.StableHlo.Run
import Idealize.ShloMosaic.Lib.Pipeline.Value
import Idealize.ShloMosaic.Lib.ValueIdx
import Idealize.ShloMosaic.PureOps.Ideal.Laws
import Mathlib.Logic.Equiv.Defs

noncomputable section

namespace Cert.Weights

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (c : Dev Cert.KernelIdeal.nD)

/-- The last scatter's dimension numbers: update `j` is written at row `j`, column the one scatter index. -/
abbrev dLast : ScatterDims Cert.KernelIdeal.S64x32 Cert.KernelIdeal.S1 Cert.KernelIdeal.S64 :=
  Cert.KernelIdeal.scatter_S64x32_S1_S64_0_1_1_0

/-- With the one scatter index `0`, every window of the last scatter starts at `0` on both axes: axis `0` is not
    named by the index map, and axis `1` reads the index, the word `0`. -/
theorem last_start (idx : IVec Cert.KernelIdeal.S1 32) (hidx : ∀ i, idx i = 0#32) (j : Cert.KernelIdeal.S64.Idx)
    (a : Fin 2) : dLast.start j idx a = 0 := by
  unfold ScatterDims.start
  split
  · rw [hidx]; rfl
  · rfl

/-- So update `q` of the last scatter lands at row `q`, column `0`: the window coordinate is `q` on axis `0` (the
    update's one window axis) and `0` on the inserted axis `1`, both inside the array. -/
theorem last_result (idx : IVec Cert.KernelIdeal.S1 32) (hidx : ∀ i, idx i = 0#32) (q : Fin 64) :
    dLast.resultIdx? (ix1 q) idx = some (ix2 q (0 : Fin 32)) := by
  have hs := last_start idx hidx (ix1 q)
  have h : ∀ a, 0 ≤ dLast.start (ix1 q) idx a + dLast.window (ix1 q) a
      ∧ dLast.start (ix1 q) idx a + dLast.window (ix1 q) a < Cert.KernelIdeal.S64x32.size a := by
    intro a
    rw [hs a]
    match a with
    | ⟨0, _⟩ =>
      have hw : dLast.window (ix1 q) ⟨0, by decide⟩ = q.val := rfl
      rw [hw]
      have : (q.val : Int) < 64 := by exact_mod_cast q.isLt
      exact ⟨by omega, by show (0 : Int) + (q.val : Int) < ((64 : Nat) : Int); omega⟩
    | ⟨1, _⟩ =>
      have hw : dLast.window (ix1 q) ⟨1, by decide⟩ = 0 := rfl
      rw [hw]
      exact ⟨by omega, by show (0 : Int) + ((0 : Nat) : Int) < ((32 : Nat) : Int); omega⟩
  unfold ScatterDims.resultIdx?
  rw [dif_pos h]
  congr 1
  funext a
  match a with
  | ⟨0, _⟩ =>
    apply Fin.ext
    show (dLast.start (ix1 q) idx ⟨0, by decide⟩ + dLast.window (ix1 q) ⟨0, by decide⟩).toNat = q.val
    rw [hs]
    have hw : dLast.window (ix1 q) ⟨0, by decide⟩ = q.val := rfl
    rw [hw]; omega
  | ⟨1, _⟩ =>
    apply Fin.ext
    show (dLast.start (ix1 q) idx ⟨1, by decide⟩ + dLast.window (ix1 q) ⟨1, by decide⟩).toNat = 0
    rw [hs]
    have hw : dLast.window (ix1 q) ⟨1, by decide⟩ = 0 := rfl
    rw [hw]; omega

/-- No update of the last scatter lands in a column from `1` on. -/
theorem last_miss (idx : IVec Cert.KernelIdeal.S1 32) (hidx : ∀ i, idx i = 0#32) (j : Cert.KernelIdeal.S64.Idx)
    (q : Fin 64) (k : Fin 31) : dLast.resultIdx? j idx ≠ some (ix2 q k.succ) := by
  obtain ⟨a, rfl⟩ : ∃ a : Fin 64, j = ix1 a := ⟨j 0, eq_ix1 j⟩
  rw [last_result idx hidx a]
  intro h
  have h1 : (ix2 a (0 : Fin 32) : Cert.KernelIdeal.S64x32.Idx) 1 = (ix2 q k.succ : Cert.KernelIdeal.S64x32.Idx) 1 :=
    congrFun (Option.some.inj h) 1
  exact absurd h1.symm (Fin.succ_ne_zero k)

section Terms
variable {F : FTy → Type} [FloatOps F]
open Cert.KernelIdeal Cert.KernelIdeal.Gen

/-- The index pairs as the kernel's program computes them from the mask `x6`: row `r` is
    `(r, (∑ x6[r]) − 1)`, each component wrapped by its axis length when negative. -/
def kidx (x6 : (⟨S64x32, .i32⟩ : BufTy).Contents (Elt F)) : (⟨S64x2, .i32⟩ : BufTy).Contents (Elt F) :=
  concatenate S64x2 1
    [⟨S64x1, broadcastInDim S64x1 ![0] bcast_S64_S64x1_0
        (select (cmpi .slt (iotaInDim S64 32 0) (broadcastInDim S64 ![] bcast_S_S64 (constantI S_ 32 0#32)))
          (addi (iotaInDim S64 32 0) (broadcastInDim S64 ![] bcast_S_S64 (constantI S_ 32 64#32)))
          (iotaInDim S64 32 0))⟩,
     ⟨S64x1, broadcastInDim S64x1 ![0] bcast_S64_S64x1_0
        (select
          (cmpi .slt
            (subi (Host.reduce IntOp.addi x6 (constantI S_ 32 0#32) reducesTo_S64x32_S64_d1 h_S_)
              (broadcastInDim S64 ![] bcast_S_S64 (constantI S_ 32 1#32)))
            (broadcastInDim S64 ![] bcast_S_S64 (constantI S_ 32 0#32)))
          (addi
            (subi (Host.reduce IntOp.addi x6 (constantI S_ 32 0#32) reducesTo_S64x32_S64_d1 h_S_)
              (broadcastInDim S64 ![] bcast_S_S64 (constantI S_ 32 1#32)))
            (broadcastInDim S64 ![] bcast_S_S64 (constantI S_ 32 32#32)))
          (subi (Host.reduce IntOp.addi x6 (constantI S_ 32 0#32) reducesTo_S64x32_S64_d1 h_S_)
            (broadcastInDim S64 ![] bcast_S_S64 (constantI S_ 32 1#32))))⟩]
    concatenates_S64x1_S64x1_S64x2_d1

/-- They are the reference's index pairs: the same operations on the same mask. -/
theorem kidx_eq (x6 : (⟨S64x32, .i32⟩ : BufTy).Contents (Elt F)) :
    kidx (F := F) x6 = Cert.ReferenceIdeal.ReadP.val_main_v16 (F := F) x6 := rfl

/-- The two programs' first scatter has the same dimension numbers. -/
theorem dFirst_eq : Cert.KernelIdeal.scatter_S64x32_S64x2_S64_n_01_01_1
    = Cert.ReferenceIdeal.scatter_S64x32_S64x2_S64_n_01_01_1 := rfl

end Terms

/-- The integer `0` converts to the float zero. -/
theorem sitofp_zero : FloatOps.sitofp (F := Ideal) .f32 (0#32 : BitVec 32) = Ideal.ofBits .f32 0x00000000#32 := by
  rw [Ideal.ofBits_zero_f32]
  show (((0#32 : BitVec 32).toInt : ℝ) : EReal) = 0
  simp

set_option maxRecDepth 8192 in
set_option maxHeartbeats 4000000 in
/-- The weights array as the region finds it: the converted mask, set to the float zero at the index pairs and then
    on the whole column of position `0`. -/
theorem read22 :
    (Cert.KernelIdeal.Gen.V m c Cert.KernelIdeal.main_v22 : (⟨2, ![64, 32]⟩ : Shape).Idx → EReal)
      = Host.scatter Cert.KernelIdeal.scatter_S64x32_S1_S64_0_1_1_0 (fun _ b => b)
          (Host.scatter Cert.KernelIdeal.scatter_S64x32_S64x2_S64_n_01_01_1 (fun _ b => b)
            (fun k => FloatOps.sitofp (F := Ideal) .f32
              ((m ((c : Thread Cert.KernelIdeal.nD Cert.KernelIdeal.τ).loc Cert.KernelIdeal.main_arg6)
                : Cert.KernelIdeal.S64x32.Idx → BitVec 32) k))
            (kidx (F := Ideal) (m ((c : Thread Cert.KernelIdeal.nD Cert.KernelIdeal.τ).loc Cert.KernelIdeal.main_arg6)))
            (fun _ => Ideal.ofBits .f32 0x00000000#32))
          (fun _ => (0#32 : BitVec 32))
          (fun _ => Ideal.ofBits .f32 0x00000000#32) := by
  dsimp only [Cert.KernelIdeal.Gen.V, Cert.KernelIdeal.Gen.hostOps0]
  after_results
  rfl

/-- The kernel's weight of position `0` is zero, on every row. -/
theorem weight_zero (q : Fin 64) :
    (Cert.KernelIdeal.Gen.V m c Cert.KernelIdeal.main_v22 : (⟨2, ![64, 32]⟩ : Shape).Idx → EReal) (ix2 q (0 : Fin 32)) = (0 : EReal) := by
  refine (congrFun (read22 m c) (ix2 q (0 : Fin 32))).trans ?_
  refine (LibScatter.scatter_set_const_of_hit dLast _ _ _ _
    ⟨Cert.KernelIdeal.S64.rowMajor (ix1 q), ?_⟩).trans Ideal.ofBits_zero_f32
  rw [Equiv.symm_apply_apply]
  exact last_result _ (fun _ => rfl) q

/-- The reference's converted mask: converting commutes with setting the constant `0` at the index pairs. -/
theorem ref19 (x6 : (⟨Cert.ReferenceIdeal.S64x32, .i32⟩ : BufTy).Contents (Elt Ideal)) (i : Cert.ReferenceIdeal.S64x32.Idx) :
    Cert.ReferenceIdeal.ReadP.val_main_v19 (F := Ideal) x6 i
      = Host.scatter Cert.ReferenceIdeal.scatter_S64x32_S64x2_S64_n_01_01_1 (fun _ b => b)
          (fun k => FloatOps.sitofp (F := Ideal) .f32 (x6 k))
          (Cert.ReferenceIdeal.ReadP.val_main_v16 (F := Ideal) x6)
          (fun _ => Ideal.ofBits .f32 0x00000000#32) i := by
  rw [Cert.ReferenceIdeal.ReadP.val_main_v19_apply]
  unfold Cert.ReferenceIdeal.ReadP.val_main_v18
  have hu : (Cert.ReferenceIdeal.ReadP.val_main_v17 (F := Ideal) : Cert.ReferenceIdeal.S64.Idx → BitVec 32)
      = fun _ => (0#32 : BitVec 32) := by
    funext j
    rw [Cert.ReferenceIdeal.ReadP.val_main_v17_apply, Cert.ReferenceIdeal.ReadP.val_main_c_5_apply]
  rw [hu, LibScatter.scatter_set_const_map (FloatOps.sitofp (F := Ideal) .f32), sitofp_zero]

/-- From position `1` on, the kernel's weight is the reference's converted mask. -/
theorem weight_succ (q : Fin 64) (k : Fin 31) :
    (Cert.KernelIdeal.Gen.V m c Cert.KernelIdeal.main_v22 : (⟨2, ![64, 32]⟩ : Shape).Idx → EReal) (ix2 q k.succ)
      = Cert.ReferenceIdeal.ReadP.val_main_v19 (F := Ideal)
          (m ((c : Thread Cert.KernelIdeal.nD Cert.KernelIdeal.τ).loc Cert.KernelIdeal.main_arg6)) (ix2 q k.succ) := by
  refine (congrFun (read22 m c) (ix2 q k.succ)).trans ?_
  refine (LibScatter.scatter_set_const_of_miss dLast _ _ _ _
    (fun n => last_miss _ (fun _ => rfl) _ q k)).trans ?_
  rw [ref19, kidx_eq, dFirst_eq]

end Cert.Weights

end
-- ==== Proof.RefValue.lean ====
/-
  The reference's result, read at an index on the extended reals.

  At `(q, d)` the reference adds, over the query positions `1 … 31` (position `0` is sliced off), the largest masked
  similarity of the position against document `d` times the position's converted mask, from the zero word's value, and
  then adds the class dot product (the second matrix read through its transpose).
-/
import proofs.«106891_j15118284882567_1_alg».proof.Proof.RefRead
import proofs.«106891_j15118284882567_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen

/-! ## The composed index maps, at coordinates

Each stage reads its operand at an index computed from the result's index; at an index given by its coordinates the
composites are again indices given by coordinates. -/

/-- The query ids are broadcast along the document axes: element `(q, i, d, j)` reads id `(q, i)`. -/
private theorem qid_ix (q : Fin 64) (i : Fin 32) (d : Fin 128) (j : Fin 192) :
    ReadP.idx_main_v21 (ReadP.idx_main_v23 (ix4 q i d j)) = ix2 q i :=
  funext fun a => Fin.ext (by match a with | ⟨0, _⟩ => rfl | ⟨1, _⟩ => rfl)

/-- The document ids are broadcast along the query axes: element `(q, i, d, j)` reads id `(d, j)`. -/
private theorem did_ix (q : Fin 64) (i : Fin 32) (d : Fin 128) (j : Fin 192) :
    ReadP.idx_main_v22 (ReadP.idx_main_v24 (ix4 q i d j)) = ix2 d j :=
  funext fun a => Fin.ext (by match a with | ⟨0, _⟩ => rfl | ⟨1, _⟩ => rfl)

/-- The similarity's left operand at feature `e`: the query token `(q, i, e)`. -/
private theorem simL_ix (q : Fin 64) (i : Fin 32) (d : Fin 128) (j : Fin 192) (e : Fin 32) :
    ReadP.lidx_main_v20 (ix4 q i d j) e = ix3 q i e :=
  funext fun a => Fin.ext (by match a with | ⟨0, _⟩ => rfl | ⟨1, _⟩ => rfl | ⟨2, _⟩ => rfl)

/-- The similarity's right operand at feature `e`: the document token `(d, j, e)`. -/
private theorem simR_ix (q : Fin 64) (i : Fin 32) (d : Fin 128) (j : Fin 192) (e : Fin 32) :
    ReadP.ridx_main_v20 (ix4 q i d j) e = ix3 d j e :=
  funext fun a => Fin.ext (by match a with | ⟨0, _⟩ => rfl | ⟨1, _⟩ => rfl | ⟨2, _⟩ => rfl)

/-- The weights are broadcast along the document axis: element `(q, i, d)` reads weight `(q, i)`. -/
private theorem w_ix (q : Fin 64) (i : Fin 32) (d : Fin 128) :
    ReadP.idx_main_v28 (ReadP.idx_main_v29 (ix3 q i d)) = ix2 q i :=
  funext fun a => Fin.ext (by match a with | ⟨0, _⟩ => rfl | ⟨1, _⟩ => rfl)

/-- The slice drops position `0`: summand `k` of the sum at `(q, d)` is the product at `(q, k + 1, d)`. -/
private theorem slice_ix (q : Fin 64) (d : Fin 128) (k : Fin 31) :
    ReadP.idx_main_v31 (ReadP.idx_main_v32 (ix2 q d) k) = ix3 q k.succ d :=
  funext fun a => Fin.ext (by
    match a with
    | ⟨0, _⟩ => rfl
    | ⟨1, _⟩ => show 1 + k.val = k.val + 1; omega
    | ⟨2, _⟩ => rfl)

/-- The class product's left operand at feature `e`: `(q, e)`. -/
private theorem clsL_ix (q : Fin 64) (d : Fin 128) (e : Fin 768) :
    ReadP.lidx_main_v34 (ix2 q d) e = ix2 q e :=
  funext fun a => Fin.ext (by match a with | ⟨0, _⟩ => rfl | ⟨1, _⟩ => rfl)

/-- The class product's right operand at feature `e`, through the transpose: `(d, e)`. -/
private theorem clsR_ix (q : Fin 64) (d : Fin 128) (e : Fin 768) :
    ReadP.idx_main_v33 (ReadP.ridx_main_v34 (ix2 q d) e) = ix2 d e :=
  funext fun a => Fin.ext (by match a with | ⟨0, _⟩ => rfl | ⟨1, _⟩ => rfl)

/-! ## The maximum over the document's positions -/

/-- The reduced axis is the last of four. -/
private theorem red3 : S64x32x128x192.Reduces [3] S64x32x128 := by decide

/-- The reduced index `(q, i, d)` with position `j` put back on the last axis is `(q, i, d, j)`. -/
private theorem lift_ix (q : Fin 64) (i : Fin 32) (d : Fin 128) (j : Fin (S64x32x128x192.size 3)) :
    red3.lift (ix3 q i d) j = ix4 q i d (⟨j.val, j.isLt⟩ : Fin 192) := by
  funext c; apply Fin.ext
  fin_cases c <;> rfl

/-- The masked similarity: where the two ids agree the dot product over the features, the zero word's value elsewhere. -/
private theorem msim_apply (x0 : (⟨S64x32x32, .f32⟩ : BufTy).Contents (Elt Ideal)) (x1 : (⟨S128x192x32, .f32⟩ : BufTy).Contents (Elt Ideal))
    (x4 : (⟨S64x32, .i32⟩ : BufTy).Contents (Elt Ideal)) (x5 : (⟨S128x192, .i32⟩ : BufTy).Contents (Elt Ideal))
    (q : Fin 64) (i : Fin 32) (d : Fin 128) (j : Fin 192) :
    ReadP.val_main_v26 (F := Ideal) x0 x1 x4 x5 (ix4 q i d j)
      = Cert.Spec.msim (nq := 64) (nd := 128) x0 x1 x4 x5 q i d j := by
  rw [ReadP.val_main_v26_apply, ReadP.val_main_v25_apply, ReadP.val_main_v23_apply, ReadP.val_main_v21_apply,
    ReadP.val_main_v24_apply, ReadP.val_main_v22_apply, ReadP.val_main_v20_apply, ReadP.val_main_call0_v0_apply,
    ReadP.val_main_cst_apply, qid_ix, did_ix]
  unfold Cert.Spec.msim Cert.Spec.sim
  simp only [simL_ix, simR_ix]
  rfl

/-- The largest masked similarity over the document's 192 positions, from the value of the word of −∞. -/
private theorem tok_apply (x0 : (⟨S64x32x32, .f32⟩ : BufTy).Contents (Elt Ideal)) (x1 : (⟨S128x192x32, .f32⟩ : BufTy).Contents (Elt Ideal))
    (x4 : (⟨S64x32, .i32⟩ : BufTy).Contents (Elt Ideal)) (x5 : (⟨S128x192, .i32⟩ : BufTy).Contents (Elt Ideal))
    (q : Fin 64) (i : Fin 32) (d : Fin 128) :
    ReadP.val_main_v27 (F := Ideal) x0 x1 x4 x5 (ix3 q i d)
      = Cert.Spec.tok (nq := 64) (nd := 128) x0 x1 x4 x5 q i d := by
  unfold ReadP.val_main_v27
  rw [Host.reduce_eq_fold_single FloatOps.maximumf _ _ reducesTo_S64x32x128x192_S64x32x128_d3 red3 h_S_]
  unfold Cert.Spec.tok
  have hf : (ReadP.val_main_v26 (F := Ideal) x0 x1 x4 x5 ∘ red3.lift (ix3 q i d))
      = fun j : Fin 192 => Cert.Spec.msim (nq := 64) (nd := 128) x0 x1 x4 x5 q i d j :=
    funext fun j => (congrArg (ReadP.val_main_v26 (F := Ideal) x0 x1 x4 x5) (lift_ix q i d j)).trans
      (msim_apply x0 x1 x4 x5 q i d ⟨j.val, j.isLt⟩)
  exact congrArg (fun f => Finset.fold max (Ideal.ofBits .f32 0xFF800000#32) f (Finset.univ : Finset (Fin 192))) hf

/-- The reference's result at `(q, d)`. -/
theorem ref_apply (x0 : (⟨S64x32x32, .f32⟩ : BufTy).Contents (Elt Ideal)) (x1 : (⟨S128x192x32, .f32⟩ : BufTy).Contents (Elt Ideal))
    (x2 : (⟨S64x768, .f32⟩ : BufTy).Contents (Elt Ideal)) (x3 : (⟨S128x768, .f32⟩ : BufTy).Contents (Elt Ideal))
    (x4 : (⟨S64x32, .i32⟩ : BufTy).Contents (Elt Ideal)) (x5 : (⟨S128x192, .i32⟩ : BufTy).Contents (Elt Ideal))
    (x6 : (⟨S64x32, .i32⟩ : BufTy).Contents (Elt Ideal)) (q : Fin 64) (d : Fin 128) :
    Cert.ReferenceIdeal.ReadP.val_main_v35 (F := Ideal) x0 x1 x2 x3 x4 x5 x6 (ix2 q d)
      = (Ideal.ofBits .f32 0x00000000#32
          + ∑ k : Fin 31, Cert.Spec.tok (nq := 64) (nd := 128) x0 x1 x4 x5 q k.succ d
              * Cert.ReferenceIdeal.ReadP.val_main_v19 (F := Ideal) x6 (ix2 q k.succ))
        + Cert.Spec.cls (nq := 64) (nd := 128) x2 x3 q d := by
  rw [ReadP.val_main_v35_apply, ReadP.val_main_v32_apply, ReadP.val_main_v34_apply]
  refine congrArg₂ (· + ·) (congrArg₂ (· + ·) rfl (Finset.sum_congr rfl fun k _ => ?_)) ?_
  · rw [ReadP.val_main_v31_apply, slice_ix, ReadP.val_main_v30_apply, ReadP.val_main_v29_apply,
      ReadP.val_main_v28_apply, w_ix, tok_apply]
    rfl
  · unfold Cert.Spec.cls
    refine Finset.sum_congr rfl fun e _ => ?_
    rw [ReadP.val_main_v33_apply, clsL_ix, clsR_ix]

end Cert.ReferenceIdeal.RefValue

end
-- ==== Proof.lean ====
/-
  The certificate of a query–document scorer: for 64 queries of 32 tokens and 128 documents of 192 tokens, the score of
  query `q` against document `d` is a token part plus a class part. The token part adds, over the query's positions, the
  largest similarity (a dot product over 32 features) of the position's token to a document token with the SAME token
  id (`0` standing in for the others), weighted by the attention mask with the position before the mask's end zeroed.
  The class part is the dot product of the two 768-feature class embeddings.

  The kernel's program zeroes the weight of position `0` and adds over all 32 positions, eight query rows per grid
  point and 32 documents at a time; the reference drops position `0` and adds over the other 31, in one piece. On the
  extended reals the two agree: the dropped term is `x · 0 = 0`, the conversions to bf16 are the identity, a matrix
  product into a zero accumulator is the host's dot product, and the order and tiling of the sums do not matter. No
  finiteness of the inputs is needed.

  `Spec` states the common function; `KernelPay`, `KernelBlock`, `KernelArrays`, `KernelValue` read the kernel's result
  array as that function; `RefValue` reads the reference's result; `Weights` (over `LibScatter`) relates the two
  programs' weights. The ideal pass rewrote nothing, so `preserves` has no conjunct.
-/
import proofs.«106891_j15118284882567_1_alg».proof.Defs
import proofs.«106891_j15118284882567_1_alg».proof.Proof.Gen.Kernel
import proofs.«106891_j15118284882567_1_alg».proof.Proof.Gen.Kernel.Skeleton
import proofs.«106891_j15118284882567_1_alg».proof.Proof.Gen.Kernel.Launch
import proofs.«106891_j15118284882567_1_alg».proof.Proof.Gen.Kernel.Points
import proofs.«106891_j15118284882567_1_alg».proof.Proof.Gen.Kernel.Frame
import proofs.«106891_j15118284882567_1_alg».proof.Proof.Gen.KernelIdeal
import proofs.«106891_j15118284882567_1_alg».proof.Proof.Gen.KernelIdeal.Skeleton
import proofs.«106891_j15118284882567_1_alg».proof.Proof.Gen.KernelIdeal.Launch
import proofs.«106891_j15118284882567_1_alg».proof.Proof.Gen.KernelIdeal.Points
import proofs.«106891_j15118284882567_1_alg».proof.Proof.Gen.KernelIdeal.Frame
import proofs.«106891_j15118284882567_1_alg».proof.Proof.Gen.ReferenceIdeal
import proofs.«106891_j15118284882567_1_alg».proof.Proof.Gen.Pre_finite_inputs
import proofs.«106891_j15118284882567_1_alg».proof.Proof.Gen.KernelIdeal.Value
import proofs.«106891_j15118284882567_1_alg».proof.Proof.RefRun
import proofs.«106891_j15118284882567_1_alg».proof.Proof.RefRead
import proofs.«106891_j15118284882567_1_alg».proof.Proof.Spec
import proofs.«106891_j15118284882567_1_alg».proof.Proof.KernelValue
import proofs.«106891_j15118284882567_1_alg».proof.Proof.Weights
import proofs.«106891_j15118284882567_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result, as a function of the kernel's arguments, is the kernel's result function: index by index
    the reference's sum over the positions `1 … 31` is the kernel's sum over all 32, the kernel's weight of position
    `0` being zero and its other weights the reference's. -/
theorem result_eq (m : (ℓ : Loc Cert.KernelIdeal.nD Cert.KernelIdeal.τ Cert.KernelIdeal.sig) → Buf (Elt Ideal) ℓ)
    (c : Dev Cert.KernelIdeal.nD) :
    Cert.ReferenceIdeal.ReadP.val_main_v35 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
      = Cert.KernelIdeal.Result.G m c := by
  funext o
  obtain ⟨q, d, rfl⟩ : ∃ (q : Fin 64) (d : Fin 128), o = ix2 q d := ⟨o 0, o 1, eq_ix2 o⟩
  rw [Cert.ReferenceIdeal.RefValue.ref_apply]
  unfold Cert.KernelIdeal.Result.G Cert.Spec.score
  rw [Cert.Spec.tokSum_eq_tail _ _ _ _ (Cert.KernelIdeal.Result.weights m c)
    (Cert.ReferenceIdeal.ReadP.val_main_v19 (F := Ideal)
      (m ((c : Thread Cert.KernelIdeal.nD Cert.KernelIdeal.τ).loc Cert.KernelIdeal.main_arg6)))
    q d (Cert.Weights.weight_zero m c q) (Cert.Weights.weight_succ m c q)]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- Both programs, run from memories that agree on the arguments, end with the result at the same function of the
    kernel's arguments. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2.1, (hagree c).2.2.2.2.1,
    (hagree c).2.2.2.2.2.1, (hagree c).2.2.2.2.2.2]
  exact (Cert.ReferenceIdeal.ReadP.val_main_v35_eq _ _ _ _ _ _ _).trans (result_eq m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
